-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x512 .f32) (main_arg1 : IVec S262144 32) (main_arg2 : IVec S262144 32) (main_arg3 : FVec F S512x256 .f32) (main_arg4 : FVec F S256 .f32) (main_arg5 : FVec F S256x64 .f32) (main_arg6 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S8192x256 : Shape := ⟨2, ![8192, 256]⟩
abbrev S1024x512 : Shape := ⟨2, ![1024, 512]⟩
abbrev S1024x1 : Shape := ⟨2, ![1024, 1]⟩
abbrev S1024x256 : Shape := ⟨2, ![1024, 256]⟩
abbrev S262144x256 : Shape := ⟨2, ![262144, 256]⟩
abbrev S1x256 : Shape := ⟨2, ![1, 256]⟩
abbrev S8192x64 : Shape := ⟨2, ![8192, 64]⟩
abbrev S1024x64 : Shape := ⟨2, ![1024, 64]⟩
abbrev S262144x64 : Shape := ⟨2, ![262144, 64]⟩
abbrev S1x64 : Shape := ⟨2, ![1, 64]⟩
abbrev S8192x8192 : Shape := ⟨2, ![8192, 8192]⟩
abbrev S1024x1024 : Shape := ⟨2, ![1024, 1024]⟩
abbrev S64x1024 : Shape := ⟨2, ![64, 1024]⟩

abbrev nBuf : Space → Nat
  | .hbm => 75
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x256, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x256, .f32⟩
  | .hbm, ⟨40, _⟩ => ⟨S_, .f32⟩
  | .hbm, ⟨41, _⟩ => ⟨S8192x256, .f32⟩
  | .hbm, ⟨42, _⟩ => ⟨S262144x1, .i32⟩
  | .hbm, ⟨43, _⟩ => ⟨S8192x256, .f32⟩
  | .hbm, ⟨44, _⟩ => ⟨S8192x1, .f32⟩
  | .hbm, ⟨45, _⟩ => ⟨S8192x256, .f32⟩
  | .hbm, ⟨46, _⟩ => ⟨S8192x256, .f32⟩
  | .hbm, ⟨47, _⟩ => ⟨S1x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x1, .f32⟩
  | .hbm, ⟨54, _⟩ => ⟨S8192x64, .f32⟩
  | .hbm, ⟨55, _⟩ => ⟨S_, .i32⟩
  | .hbm, ⟨56, _⟩ => ⟨S262144, .i32⟩
  | .hbm, ⟨57, _⟩ => ⟨S262144, .i1⟩
  | .hbm, ⟨58, _⟩ => ⟨S_, .i32⟩
  | .hbm, ⟨59, _⟩ => ⟨S262144, .i32⟩
  | .hbm, ⟨60, _⟩ => ⟨S262144, .i32⟩
  | .hbm, ⟨61, _⟩ => ⟨S262144, .i32⟩
  | .hbm, ⟨62, _⟩ => ⟨S262144x1, .i32⟩
  | .hbm, ⟨63, _⟩ => ⟨S262144x64, .f32⟩
  | .hbm, ⟨64, _⟩ => ⟨S_, .f32⟩
  | .hbm, ⟨65, _⟩ => ⟨S8192x64, .f32⟩
  | .hbm, ⟨66, _⟩ => ⟨S262144x1, .i32⟩
  | .hbm, ⟨67, _⟩ => ⟨S8192x64, .f32⟩
  | .hbm, ⟨68, _⟩ => ⟨S8192x1, .f32⟩
  | .hbm, ⟨69, _⟩ => ⟨S8192x64, .f32⟩
  | .hbm, ⟨70, _⟩ => ⟨S8192x64, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x1, .f32⟩
  | .local _ .vmem, ⟨4, _⟩ => ⟨S1024x1, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S256x64, .f32⟩
  | .local _ .vmem, ⟨10, _⟩ => ⟨S1024x1, .f32⟩
  | .local _ .vmem, ⟨11, _⟩ => ⟨S1024x1, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x1024, .f32⟩
  | .local _ .vmem, ⟨19, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  shapeCasts_S8192_S8192x1 : S8192.ShapeCasts S8192x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  bcast_S_S8192x256 : S_.BroadcastsInDim S8192x256 (![] : Fin 0 → Fin S8192x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S1024x256_S1024x256 : S1024x256.ShapeCasts S1024x256
  inb_S256x64_S256x64_0_0 : ∀ a, (![0, 0] : Fin 2 → Nat) a + S256x64.size a ≤ S256x64.size a
  h_S256x64 : 0 < S256x64.numel
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  scatter_S8192_S262144x1_S262144_n_0_0_1_wf : ScatterDims.WF S8192 S262144x1 S262144 [] [0] [0] 1
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x64_S1024x64_1_0_0_1_n_n_wf : DotDims.WF S1024x256 S256x64 S1024x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S8192 : Shape := ⟨1, ![8192]⟩
abbrev S262144x1 : Shape := ⟨2, ![262144, 1]⟩
abbrev S8192x256 : Shape := ⟨2, ![8192, 256]⟩
abbrev S8192x1 : Shape := ⟨2, ![8192, 1]⟩
abbrev S262144x256 : Shape := ⟨2, ![262144, 256]⟩
abbrev S1x256 : Shape := ⟨2, ![1, 256]⟩
abbrev S8192x64 : Shape := ⟨2, ![8192, 64]⟩
abbrev S262144x64 : Shape := ⟨2, ![262144, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x256, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .f32⟩
  | .hbm, ⟨42, _⟩ => ⟨S_, .f32⟩
  | .hbm, ⟨43, _⟩ => ⟨S8192x256, .f32⟩
  | .hbm, ⟨44, _⟩ => ⟨S262144x1, .i32⟩
  | .hbm, ⟨45, _⟩ => ⟨S8192x256, .f32⟩
  | .hbm, ⟨46, _⟩ => ⟨S8192x1, .f32⟩
  | .hbm, ⟨47, _⟩ => ⟨S8192x256, .f32⟩
  | .hbm, ⟨48, _⟩ => ⟨S8192x256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S8192x64, .f32⟩
  | .hbm, ⟨56, _⟩ => ⟨S8192x1, .f32⟩
  | .hbm, ⟨57, _⟩ => ⟨S8192x64, .f32⟩
  | .hbm, ⟨58, _⟩ => ⟨S8192x64, .f32⟩
  | .hbm, ⟨59, _⟩ => ⟨S_, .i32⟩
  | .hbm, ⟨60, _⟩ => ⟨S262144, .i32⟩
  | .hbm, ⟨61, _⟩ => ⟨S262144, .i1⟩
  | .hbm, ⟨62, _⟩ => ⟨S_, .i32⟩
  | .hbm, ⟨63, _⟩ => ⟨S262144, .i32⟩
  | .hbm, ⟨64, _⟩ => ⟨S262144, .i32⟩
  | .hbm, ⟨65, _⟩ => ⟨S262144, .i32⟩
  | .hbm, ⟨66, _⟩ => ⟨S262144x1, .i32⟩
  | .hbm, ⟨67, _⟩ => ⟨S262144x64, .f32⟩
  | .hbm, ⟨68, _⟩ => ⟨S_, .f32⟩
  | .hbm, ⟨69, _⟩ => ⟨S8192x64, .f32⟩
  | .hbm, ⟨70, _⟩ => ⟨S262144x1, .i32⟩
  | .hbm, ⟨71, _⟩ => ⟨S8192x64, .f32⟩
  | .hbm, ⟨72, _⟩ => ⟨S8192x1, .f32⟩
  | .hbm, ⟨73, _⟩ => ⟨S8192x64, .f32⟩
  | .hbm, ⟨74, _⟩ => ⟨S8192x64, .f32⟩
  | .hbm, ⟨75, _⟩ => ⟨S1x64, .f32⟩
  | .hbm, ⟨76, _⟩ => ⟨S8192x64, .f32⟩
  | .hbm, ⟨77, _⟩ => ⟨S8192x64, .f32⟩
  | .hbm, ⟨78, _⟩ => ⟨S64x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x8192_S8192x8192_1_0_0_1_n_n_wf : DotDims.WF S8192x64 S64x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.R0.lean ====
/-
  The first scaled product, one row block at a time. Grid point t of the first kernel region holds rows
  1024·t … 1024·t + 1023 of the feature matrix, the whole first weight matrix and the same rows of the
  column of source-degree factors; it stores, into the same rows of the result, the matrix product of the
  two scaled row by row by the factor. This module says what each window's staging buffer holds before and
  after the body at every point, proves the body's triple, and packages both as the region's proof data and
  its body obligation, for ANY contents V the region is entered from.
-/
import proofs.«125719_j32100585570938_1_alg».proof.Proof.Gen.Kernel.Launch
import proofs.«125719_j32100585570938_1_alg».proof.Proof.Gen.Kernel.Skeleton
import proofs.«125719_j32100585570938_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows: the staging buffer holds the point's block, fetched there or not. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix: one block, fetched once, found at every point. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The factors' rows. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rx0 : Rect S1024x512 := Rect.unit (s := S1024x512) ![0, 0] S1024x512.size inb_S1024x512_S1024x512_0_0
abbrev rw0 : Rect S512x256 := Rect.unit (s := S512x256) ![0, 0] S512x256.size inb_S512x256_S512x256_0_0
abbrev rn0 : Rect S1024x1 := Rect.unit (s := S1024x1) ![0, 0] S1024x1.size inb_S1024x1_S1024x1_0_0
abbrev ro0 : Rect S1024x256 := Rect.unit (s := S1024x256) ![0, 0] S1024x256.size inb_S1024x256_S1024x256_0_0

/-- The result window's buffer after the body: its one store, of the scaled product of the three loads. -/
def scaled0 (x : Vec F S1024x512 .f32) (w : Vec F S512x256 .f32) (n : Vec F S1024x1 .f32) : Vec F S1024x256 .f32 :=
  View.canon [⟨ro0, k0_pay1 (View.ld x rx0) (View.ld w rw0) (View.ld n rn0)⟩]

/-- The one store covers the buffer. -/
theorem cover0 (p : Vec F S1024x256 .f32) (y : S1024x256.Idx) :
    ∃ pc ∈ ([⟨ro0, p⟩] : List (View.Piece (Elt F) S1024x256 .f32)), y ∈ pc.1.set :=
  View.cover_of_tiled [⟨ro0, p⟩] S1024x256.size (by rfl) y

set_option maxHeartbeats 1000000 in
/-- The body on whole staging memrefs: the inputs keep their contents, the result's buffer ends at scaled0 of them. -/
theorem triple0 (c : Dev nD) (E : Set ℕ) (i : grid0.Coords)
    (a1 : Memref sig .tc .vmem S1024x512 .f32) (h1 : a1.IsWhole) (a2 : Memref sig .tc .vmem S512x256 .f32) (h2 : a2.IsWhole)
    (a3 : Memref sig .tc .vmem S1024x1 .f32) (h3 : a3.IsWhole) (a4 : Memref sig .tc .vmem S1024x256 .f32) (h4 : a4.IsWhole)
    (x : Vec F S1024x512 .f32) (w : Vec F S512x256 .f32) (n : Vec F S1024x1 .f32) (K : PUnit → sProp 𝕄) :
    iprop(owns (c : Thread nD τ) a1 fullShare x ∗ owns (c : Thread nD τ) a2 fullShare w ∗ owns (c : Thread nD τ) a3 fullShare n
        ∗ (∃ d, owns (c : Thread nD τ) a4 fullShare d)
        ∗ (iprop(owns (c : Thread nD τ) a1 fullShare x ∗ owns (c : Thread nD τ) a2 fullShare w ∗ owns (c : Thread nD τ) a3 fullShare n
            ∗ owns (c : Thread nD τ) a4 fullShare (scaled0 x w n)) -∗ K ⟨⟩))
      ⊢ wp frame (wpE (defs₀ (F := F)) Variants.none c none) E (cc0__scaled_matmul_kernel i a1 h1 a2 h2 a3 h3 a4 h4) K := by
  simp only [cc0__scaled_matmul_kernel_eq_skeleton]; unfold cc0__scaled_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-- The region's proof data at entry contents V: inputs keep their blocks, the result's buffer holds scaled0 of them. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => scaled0 (blk0 V c 0 t) (blk0 V c 1 t) (blk0 V c 2 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = blk0 V c 2 t := by dsimp only [data0]
theorem data0_after_3 (c : Dev nD) (t : Fin cfg0.N) :
    (data0 V c).after 3 t = scaled0 (blk0 V c 0 t) (blk0 V c 1 t) (blk0 V c 2 t) := by dsimp only [data0]

theorem found0_0 (c : Dev nD) (t : Fin cfg0.N) (d) : (data0 V c).before 0 t d = blk0 V c 0 t :=
  found0_0_of V (data0 V c) (data0_A V c 0) (data0_after_0 V c) t d
theorem found0_1 (c : Dev nD) (t : Fin cfg0.N) (d) : (data0 V c).before 1 t d = blk0 V c 1 t :=
  found0_1_of V (data0 V c) (data0_A V c 1) (data0_after_1 V c) t d
theorem found0_2 (c : Dev nD) (t : Fin cfg0.N) (d) : (data0 V c).before 2 t d = blk0 V c 2 t :=
  found0_2_of V (data0 V c) (data0_A V c 2) (data0_after_2 V c) t d

/-- What the body is called with at point t, the windows one by one, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (data0 V c).Φ t.succ = (data0 V c).Φ t.castSucc from rfl,
    show (data0 V c).owesAt () t.succ = (data0 V c).owesAt () t.castSucc from rfl,
    data0_after_0, data0_after_1, data0_after_2, data0_after_3]
  iintro ⟨HΦ, Ho, ⟨%d0, H0⟩, ⟨%d1, H1⟩, ⟨%d2, H2⟩, ⟨%d3, H3⟩⟩
  iapply (triple0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation0 (c : Dev nD) : BodyObligation (data0 (F := F) V c) (defs₀ (F := F)) Variants.none () Set.univ := fun t => by
  rw [bigSep_W0, bigSep_W0]
  exact body0 V c t

end Cert.Kernel.Hand

end
-- ==== Proof.K.R1.lean ====
/-
  The second scaled product, one row block at a time. Grid point t of the second kernel region holds rows
  1024·t … 1024·t + 1023 of the matrix of hidden activations, the whole second weight matrix and the same rows of the
  column of source-degree factors; it stores, into the same rows of the result, the matrix product of the
  two scaled row by row by the factor. This module says what each window's staging buffer holds before and
  after the body at every point, proves the body's triple, and packages both as the region's proof data and
  its body obligation, for ANY contents V the region is entered from.
-/
import proofs.«125719_j32100585570938_1_alg».proof.Proof.Gen.Kernel.Launch
import proofs.«125719_j32100585570938_1_alg».proof.Proof.Gen.Kernel.Skeleton
import proofs.«125719_j32100585570938_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation rows: the staging buffer holds the point's block, fetched there or not. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The weight matrix: one block, fetched once, found at every point. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The factors' rows. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body loads and stores through. -/
abbrev rx1 : Rect S1024x256 := Rect.unit (s := S1024x256) ![0, 0] S1024x256.size inb_S1024x256_S1024x256_0_0
abbrev rw1 : Rect S256x64 := Rect.unit (s := S256x64) ![0, 0] S256x64.size inb_S256x64_S256x64_0_0
abbrev rn1 : Rect S1024x1 := Rect.unit (s := S1024x1) ![0, 0] S1024x1.size inb_S1024x1_S1024x1_0_0
abbrev ro1 : Rect S1024x64 := Rect.unit (s := S1024x64) ![0, 0] S1024x64.size inb_S1024x64_S1024x64_0_0

/-- The result window's buffer after the body: its one store, of the scaled product of the three loads. -/
def scaled1 (x : Vec F S1024x256 .f32) (w : Vec F S256x64 .f32) (n : Vec F S1024x1 .f32) : Vec F S1024x64 .f32 :=
  View.canon [⟨ro1, k1_pay1 (View.ld x rx1) (View.ld w rw1) (View.ld n rn1)⟩]

/-- The one store covers the buffer. -/
theorem cover1 (p : Vec F S1024x64 .f32) (y : S1024x64.Idx) :
    ∃ pc ∈ ([⟨ro1, p⟩] : List (View.Piece (Elt F) S1024x64 .f32)), y ∈ pc.1.set :=
  View.cover_of_tiled [⟨ro1, p⟩] S1024x64.size (by rfl) y

set_option maxHeartbeats 1000000 in
/-- The body on whole staging memrefs: the inputs keep their contents, the result's buffer ends at scaled1 of them. -/
theorem triple1 (c : Dev nD) (E : Set ℕ) (i : grid1.Coords)
    (a1 : Memref sig .tc .vmem S1024x256 .f32) (h1 : a1.IsWhole) (a2 : Memref sig .tc .vmem S256x64 .f32) (h2 : a2.IsWhole)
    (a3 : Memref sig .tc .vmem S1024x1 .f32) (h3 : a3.IsWhole) (a4 : Memref sig .tc .vmem S1024x64 .f32) (h4 : a4.IsWhole)
    (x : Vec F S1024x256 .f32) (w : Vec F S256x64 .f32) (n : Vec F S1024x1 .f32) (K : PUnit → sProp 𝕄) :
    iprop(owns (c : Thread nD τ) a1 fullShare x ∗ owns (c : Thread nD τ) a2 fullShare w ∗ owns (c : Thread nD τ) a3 fullShare n
        ∗ (∃ d, owns (c : Thread nD τ) a4 fullShare d)
        ∗ (iprop(owns (c : Thread nD τ) a1 fullShare x ∗ owns (c : Thread nD τ) a2 fullShare w ∗ owns (c : Thread nD τ) a3 fullShare n
            ∗ owns (c : Thread nD τ) a4 fullShare (scaled1 x w n)) -∗ K ⟨⟩))
      ⊢ wp frame (wpE (defs₀ (F := F)) Variants.none c none) E (cc1__scaled_matmul_kernel i a1 h1 a2 h2 a3 h3 a4 h4) K := by
  simp only [cc1__scaled_matmul_kernel_eq_skeleton]; unfold cc1__scaled_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The region's proof data at entry contents V: inputs keep their blocks, the result's buffer holds scaled1 of them. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => scaled1 (blk1 V c 0 t) (blk1 V c 1 t) (blk1 V c 2 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = blk1 V c 2 t := by dsimp only [data1]
theorem data1_after_3 (c : Dev nD) (t : Fin cfg1.N) :
    (data1 V c).after 3 t = scaled1 (blk1 V c 0 t) (blk1 V c 1 t) (blk1 V c 2 t) := by dsimp only [data1]

theorem found1_0 (c : Dev nD) (t : Fin cfg1.N) (d) : (data1 V c).before 0 t d = blk1 V c 0 t :=
  found1_0_of V (data1 V c) (data1_A V c 0) (data1_after_0 V c) t d
theorem found1_1 (c : Dev nD) (t : Fin cfg1.N) (d) : (data1 V c).before 1 t d = blk1 V c 1 t :=
  found1_1_of V (data1 V c) (data1_A V c 1) (data1_after_1 V c) t d
theorem found1_2 (c : Dev nD) (t : Fin cfg1.N) (d) : (data1 V c).before 2 t d = blk1 V c 2 t :=
  found1_2_of V (data1 V c) (data1_A V c 2) (data1_after_2 V c) t d

/-- What the body is called with at point t, the windows one by one, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it returns. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2]
  rw [show (data1 V c).Φ t.succ = (data1 V c).Φ t.castSucc from rfl,
    show (data1 V c).owesAt () t.succ = (data1 V c).owesAt () t.castSucc from rfl,
    data1_after_0, data1_after_1, data1_after_2, data1_after_3]
  iintro ⟨HΦ, Ho, ⟨%d0, H0⟩, ⟨%d1, H1⟩, ⟨%d2, H2⟩, ⟨%d3, H3⟩⟩
  iapply (triple1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation1 (c : Dev nD) : BodyObligation (data1 (F := F) V c) (defs₀ (F := F)) Variants.none () Set.univ := fun t => by
  rw [bigSep_W1, bigSep_W1]
  exact body1 V c t

end Cert.Kernel.Hand

end
-- ==== Proof.K.R2.lean ====
/-
  The decoder, one output tile at a time. Grid point t = (i, j) of the third kernel region holds rows
  1024·i … of the embedding matrix in its first window and rows 1024·j … of THE SAME matrix in its second, and
  stores the logistic function of the product of the first block with the transpose of the second into tile
  (i, j) of the result. Both input windows read one array, so the region holds that array in two halves of the
  full share, one per window. This module says what each window's staging buffer holds before and after the body
  at every point, proves the body's triple, and packages both as the region's proof data and its body
  obligation, for ANY contents V the region is entered from.
-/
import proofs.«125719_j32100585570938_1_alg».proof.Proof.Gen.Kernel.Launch
import proofs.«125719_j32100585570938_1_alg».proof.Proof.Gen.Kernel.Skeleton
import proofs.«125719_j32100585570938_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block: fetched when the row coordinate moves, found at every point. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The column block. -/
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body loads and stores through. -/
abbrev rz2 : Rect S1024x64 := Rect.unit (s := S1024x64) ![0, 0] S1024x64.size inb_S1024x64_S1024x64_0_0
abbrev ro2 : Rect S1024x1024 := Rect.unit (s := S1024x1024) ![0, 0] S1024x1024.size inb_S1024x1024_S1024x1024_0_0

/-- The result window's buffer after the body: its one store, the logistic of the product of the two loads. -/
def decoded2 (zi zj : Vec F S1024x64 .f32) : Vec F S1024x1024 .f32 :=
  View.canon [⟨ro2, k2_pay1 (View.ld zi rz2) (View.ld zj rz2)⟩]

/-- The one store covers the buffer. -/
theorem cover2 (p : Vec F S1024x1024 .f32) (y : S1024x1024.Idx) :
    ∃ pc ∈ ([⟨ro2, p⟩] : List (View.Piece (Elt F) S1024x1024 .f32)), y ∈ pc.1.set :=
  View.cover_of_tiled [⟨ro2, p⟩] S1024x1024.size (by rfl) y

set_option maxHeartbeats 1000000 in
/-- The body on whole staging memrefs: the inputs keep their contents, the result's buffer ends at decoded2 of them. -/
theorem triple2 (c : Dev nD) (E : Set ℕ) (i : grid2.Coords)
    (a2 : Memref sig .tc .vmem S1024x64 .f32) (h2 : a2.IsWhole) (a3 : Memref sig .tc .vmem S1024x64 .f32) (h3 : a3.IsWhole)
    (a4 : Memref sig .tc .vmem S1024x1024 .f32) (h4 : a4.IsWhole)
    (zi zj : Vec F S1024x64 .f32) (K : PUnit → sProp 𝕄) :
    iprop(owns (c : Thread nD τ) a2 fullShare zi ∗ owns (c : Thread nD τ) a3 fullShare zj
        ∗ (∃ d, owns (c : Thread nD τ) a4 fullShare d)
        ∗ (iprop(owns (c : Thread nD τ) a2 fullShare zi ∗ owns (c : Thread nD τ) a3 fullShare zj
            ∗ owns (c : Thread nD τ) a4 fullShare (decoded2 zi zj)) -∗ K ⟨⟩))
      ⊢ wp frame (wpE (defs₀ (F := F)) Variants.none c none) E (cc2__decoder_kernel i a2 h2 a3 h3 a4 h4) K := by
  simp only [cc2__decoder_kernel_eq_skeleton]; unfold cc2__decoder_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The region's proof data at entry contents V: inputs keep their blocks, the result's buffer holds decoded2 of
    them; the two input windows hold the left and the right half of their common array's full share. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => decoded2 (blk2 V c 0 t) (blk2 V c 1 t)
  Φ _ := Pipeline.ΦA spec2 c
  q w := match w with
    | ⟨0, _⟩ => (fullShare : PosShare TreeShare).left
    | ⟨1, _⟩ => (fullShare : PosShare TreeShare).right
    | ⟨2, _⟩ => fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blk2 V c 0 t := by dsimp only [data2]
theorem data2_after_1 (c : Dev nD) (t : Fin cfg2.N) : (data2 V c).after 1 t = blk2 V c 1 t := by dsimp only [data2]
theorem data2_after_2 (c : Dev nD) (t : Fin cfg2.N) :
    (data2 V c).after 2 t = decoded2 (blk2 V c 0 t) (blk2 V c 1 t) := by dsimp only [data2]

theorem found2_0 (c : Dev nD) (t : Fin cfg2.N) (d) : (data2 V c).before 0 t d = blk2 V c 0 t :=
  found2_0_of V (data2 V c) (data2_A V c 0) (data2_after_0 V c) t d
theorem found2_1 (c : Dev nD) (t : Fin cfg2.N) (d) : (data2 V c).before 1 t d = blk2 V c 1 t :=
  found2_1_of V (data2 V c) (data2_A V c 1) (data2_after_1 V c) t d

/-- What the body is called with at point t, the windows one by one, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (triple2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem obligation2 (c : Dev nD) : BodyObligation (data2 (F := F) V c) (defs₀ (F := F)) Variants.none () Set.univ := fun t => by
  rw [bigSep_W2, bigSep_W2]
  exact body2 V c t

end Cert.Kernel.Hand

end
-- ==== Proof.K.Vals.lean ====
/-
  The contents of the core's buffers between the items of @main: the launch contents, then after each stretch of host
  operations what the stretch computes, and after each kernel region the region's result array at what its
  write-backs leave, every other buffer as the region found it. Each region's proof data is taken at the contents
  the region is entered from.
-/
import proofs.«125719_j32100585570938_1_alg».proof.Proof.K.R0
import proofs.«125719_j32100585570938_1_alg».proof.Proof.K.R1
import proofs.«125719_j32100585570938_1_alg».proof.Proof.K.R2
import proofs.«125719_j32100585570938_1_alg».proof.Proof.Gen.Kernel.Regions
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- After the first stretch (the degrees and their inverse square roots): the first region's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first region: its arrays at what the pipeline leaves. -/
def W2 (c : Dev nD) : Valuation τ sig (Elt F) :=
  Pipeline.withArrays spec0 c (W1 m c) fun w => (data0 (V1 m) c).arrAt w cfg0.N
abbrev V2 : (c : Dev nD) → (b : Ref sig .tc) → Buf (Elt F) ((c : Thread nD τ).loc b) := fun c b => W2 m c b
/-- After the first layer's aggregation, its activation, and the reshaped factors: the second region's entry. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev V5 : (c : Dev nD) → (b : Ref sig .tc) → Buf (Elt F) ((c : Thread nD τ).loc b) := fun c b => W5 m c b
/-- After the second region. -/
def W6 (c : Dev nD) : Valuation τ sig (Elt F) :=
  Pipeline.withArrays spec1 c (W5 m c) fun w => (data1 (V5 m) c).arrAt w cfg1.N
abbrev V6 : (c : Dev nD) → (b : Ref sig .tc) → Buf (Elt F) ((c : Thread nD τ).loc b) := fun c b => W6 m c b
/-- After the second layer's aggregation: the third region's entry. -/
abbrev W7 (c : Dev nD) : Valuation τ sig (Elt F) := StableHlo.after hostOps2 (W6 m c)
abbrev V7 : (c : Dev nD) → (b : Ref sig .tc) → Buf (Elt F) ((c : Thread nD τ).loc b) := fun c b => W7 m c b
/-- After the third region: only its result array changes (its two input windows read one array and leave it). -/
def W8 (c : Dev nD) : Valuation τ sig (Elt F) :=
  Function.update (W7 m c) (Proc.devRef .tc (Pipeline.arrRef spec2 2)) ((data2 (V7 m) c).arrAt 2 cfg2.N)
abbrev V8 : (c : Dev nD) → (b : Ref sig .tc) → Buf (Elt F) ((c : Thread nD τ).loc b) := fun c b => W8 m c b

theorem W2_arr (c : Dev nD) (w : Fin cfg0.W) :
    W2 m c (Proc.devRef .tc (Pipeline.arrRef spec0 w)) = (data0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem exit0_arr (c : Dev nD) (w : Fin cfg0.W) : (data0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg1.W) :
    W6 m c (Proc.devRef .tc (Pipeline.arrRef spec1 w)) = (data1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem exit1_arr (c : Dev nD) (w : Fin cfg1.W) : (data1 (V5 m) c).arrAt w cfg1.N = V6 m c (Pipeline.arrRef spec1 w) :=
  (W6_arr m c w).symm
theorem exit1_rest (c : Dev nD) : ∀ b, b ∉ Finset.univ.image (Pipeline.arrRef spec1) → V6 m c b = V5 m c b :=
  fun b hb => W6_of_ne m c b fun w e => hb (Finset.mem_image.mpr ⟨w, Finset.mem_univ _, e⟩)

theorem W8_out (c : Dev nD) : W8 m c (Proc.devRef .tc (Pipeline.arrRef spec2 2)) = (data2 (V7 m) c).arrAt 2 cfg2.N := by
  unfold W8; exact Function.update_self ..
theorem W8_of_ne (c : Dev nD) (b : Ref sig .tc) (hb : Pipeline.arrRef spec2 2 ≠ b) :
    W8 m c (Proc.devRef .tc b) = W7 m c (Proc.devRef .tc b) := by
  unfold W8; exact Function.update_of_ne (StableHlo.devRef_ne_of_ne (Ne.symm hb)) ..

/-- What each item leaves alone. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W7_of (c : Dev nD) (r : Ref sig .tc) (h : r ∉ hostOps2_W) : W7 m c r = W6 m c r :=
  StableHlo.after_of_writes_sub hostOps2 _ hostOps2_writes h

/-- The tables' admissible contents: no region has a prefetched table. -/
abbrev adm : (p : Fin 3) → (pcfgs (F := F) p).Adm := fun p => (cfgs p).toPCfg_adm

/-- Every region's proof data, each at its entry contents. -/
def pdats : (p : Fin 3) → (c : Dev nD) → Dat τ (Elt F) Unit ℕ (UR sig nD τ) ℕ (Pipeline.pin (pcfgs (F := F)) adm p) c
  | ⟨0, _⟩ => fun c => data0 (V1 m) c
  | ⟨1, _⟩ => fun c => data1 (V5 m) c
  | ⟨2, _⟩ => fun c => data2 (V7 m) c

end Cert.Kernel.Hand

end
-- ==== Proof.K.Run.lean ====
/-
  The run of @main: three stretches of host operations and three kernel regions, in order, each entered from the
  buffer contents the one before it left. Every weakly fair execution terminates, faults nowhere, and ends with the
  decoder's result array at what the third region's write-backs leave and with the seven argument arrays as launched.
-/
import proofs.«125719_j32100585570938_1_alg».proof.Proof.K.Vals
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A stretch of host operations from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart. -/
abbrev Tₙ (c : Dev nD) : sProp 𝕄 := iprop(StableHlo.held (c : Thread nD τ) (Pipeline.ucRefs τ sig) (W8 m c) ∗ ∃ r, prngReg c r)

set_option backward.isDefEq.respectTransparency.types false in
/-- Kernel region 0 over the thread state: entered from every unscoped buffer at the contents before it, left at the
    contents after it. Its arrays are split out of the unscoped buffers and put back at their exit contents; the
    generator register passes into the region's invariant and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the contents before it, left at the
    contents after it. Its arrays are split out of the unscoped buffers and put back at their exit contents; the
    generator register passes into the region's invariant and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m) c).loose
  hwaits := Pipeline.hwaits_of_owed_zero _ _ _ _ L lv 1 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- ENTRY of the decoder's region, the arrays' part: the core's unscoped buffers at V are the region's arrays at their
    entry contents — the embedding array's buffer, held whole, split into the left and the right half of the full
    share for the two windows that read it, the result's array whole — and the unscoped rest. -/
theorem entry2_arrays (V : (c : Dev nD) → (b : Ref sig .tc) → Buf (Elt F) ((c : Thread nD τ).loc b)) (c : Dev nD) :
    (unscopedBufs c (V c) : sProp 𝕄) ⊢ iprop((data2 V c).arrays (data2 V c).A ∗ Pipeline.unscopedRest spec2 c (V c)) := by
  rw [Pipeline.unscopedBufs_split₀ (cfgs) 2 winFacts₀2.arr_unscoped c (V c)]
  refine sep_mono ?_ .rfl
  unfold Pipeline.arrBufs Dat.arrays
  rw [bigSep_W2, show Finset.image (Pipeline.arrRef (cfgs 2).spec) Finset.univ = {main_v51, main_v52} from by decide,
    bigSep_insert (by decide), bigSep_singleton,
    show (cfg2.win 0).arr.view.set = Finset.univ from (arr_whole2 0).set_eq_univ,
    show (cfg2.win 2).arr.view.set = Finset.univ from (arr_whole2 2).set_eq_univ]
  show _ ⊢ iprop((((c : Thread nD τ).loc main_v51) ↦{(fullShare : PosShare TreeShare).left} V c main_v51)
      ∗ (((c : Thread nD τ).loc main_v51) ↦{(fullShare : PosShare TreeShare).right} V c main_v51)
      ∗ (((c : Thread nD τ).loc main_v52) ↦{fullShare} V c main_v52))
  exact (sep_mono (pointsTo_share (PosShare.mem_left_op_right (fullShare : PosShare TreeShare))).1 .rfl).trans sep_assoc.1

set_option backward.isDefEq.respectTransparency.types false in
/-- EXIT of the decoder's region, the arrays' part: the two halves of the embedding array still hold its entry
    contents (an input window's array is never written), so they join to the whole buffer again; with the result's
    array at what the write-backs left and the unscoped rest, they are the core's unscoped buffers at any contents V'
    that agree with these. -/
theorem exit2_arrays (V : (c : Dev nD) → (b : Ref sig .tc) → Buf (Elt F) ((c : Thread nD τ).loc b)) (c : Dev nD)
    (V' : (b : Ref sig .tc) → Buf (Elt F) ((c : Thread nD τ).loc b))
    (h51 : V' main_v51 = V c main_v51) (h52 : V' main_v52 = (data2 V c).arrAt 2 cfg2.N)
    (hrest : ∀ b, b ∉ Finset.univ.image (Pipeline.arrRef spec2) → V' b = V c b) :
    iprop((data2 V c).arrays ((data2 V c).arrAt · cfg2.N) ∗ Pipeline.unscopedRest spec2 c (V c)) ⊢ (unscopedBufs c V' : sProp 𝕄) := by
  rw [Pipeline.unscopedBufs_split₀ (cfgs) 2 winFacts₀2.arr_unscoped c V']
  refine sep_mono ?_ (Entails.of_eq ?_)
  · unfold Pipeline.arrBufs Dat.arrays
    rw [bigSep_W2, show Finset.image (Pipeline.arrRef (cfgs 2).spec) Finset.univ = {main_v51, main_v52} from by decide,
      bigSep_insert (by decide), bigSep_singleton,
      show (cfg2.win 0).arr.view.set = Finset.univ from (arr_whole2 0).set_eq_univ,
      show (cfg2.win 2).arr.view.set = Finset.univ from (arr_whole2 2).set_eq_univ,
      h51, h52]
    beta_reduce
    rw [(data2 V c).arrAt_in 0 rfl _, (data2 V c).arrAt_in 1 rfl _]
    show iprop((((c : Thread nD τ).loc main_v51) ↦{(fullShare : PosShare TreeShare).left} V c main_v51)
        ∗ (((c : Thread nD τ).loc main_v51) ↦{(fullShare : PosShare TreeShare).right} V c main_v51)
        ∗ (((c : Thread nD τ).loc main_v52) ↦{fullShare} (data2 V c).arrAt 2 cfg2.N)) ⊢ _
    exact sep_assoc.2.trans (sep_mono (pointsTo_share (PosShare.mem_left_op_right (fullShare : PosShare TreeShare))).2 .rfl)
  · unfold Pipeline.unscopedRest
    exact bigSep_congr fun b hb => by rw [hrest b (Finset.mem_sdiff.mp hb).2]

set_option backward.isDefEq.respectTransparency.types false in
/-- Kernel region 2, the decoder. Its two input windows read ONE array: at entry that array's buffer, held whole, is
    split into the two halves of the full share, one per window; at exit the halves, which still hold the entry
    contents, are joined again. The result's array is held whole throughout. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (obligation2 (V7 m) c).loose
  hwaits := Pipeline.hwaits_of_owed_zero _ _ _ _ L lv 2 fun _ _ => rfl
  pre c := iprop(StableHlo.held (c : Thread nD τ) (Pipeline.ucRefs τ sig) (W7 m c) ∗ Rest c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := entry2_arrays (V7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (V7 m c))
        ⊢ (unscopedBufs c (V8 m c) : sProp 𝕄) :=
      exit2_arrays (V7 m) c (V8 m c) (W8_of_ne m c main_v51 (by decide)) (W8_out m c)
      (fun b hb => W8_of_ne m c b fun e => hb (Finset.mem_image.mpr ⟨2, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m) ]

/-- The arguments end as launched: no stretch writes one and no region changes one. -/
theorem W8_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <|
  (W5_of m c main_arg0 (by decide)).trans <| (W4_of m c main_arg0 (by decide)).trans <| (W3_of m c main_arg0 (by decide)).trans <|
  ((W2_arr m c 0).trans (((data0 (V1 m) c).arrAt_in 0 rfl _).trans (data0_A (V1 m) c 0))).trans <| (W1_of m c main_arg0 (by decide)).trans rfl
theorem W8_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
  (W5_of m c main_arg1 (by decide)).trans <| (W4_of m c main_arg1 (by decide)).trans <| (W3_of m c main_arg1 (by decide)).trans <|
  (W2_of_ne m c main_arg1 (by decide)).trans <| (W1_of m c main_arg1 (by decide)).trans rfl
theorem W8_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
  (W5_of m c main_arg2 (by decide)).trans <| (W4_of m c main_arg2 (by decide)).trans <| (W3_of m c main_arg2 (by decide)).trans <|
  (W2_of_ne m c main_arg2 (by decide)).trans <| (W1_of m c main_arg2 (by decide)).trans rfl
theorem W8_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <|
  (W5_of m c main_arg3 (by decide)).trans <| (W4_of m c main_arg3 (by decide)).trans <| (W3_of m c main_arg3 (by decide)).trans <|
  ((W2_arr m c 1).trans (((data0 (V1 m) c).arrAt_in 1 rfl _).trans (data0_A (V1 m) c 1))).trans <| (W1_of m c main_arg3 (by decide)).trans rfl
theorem W8_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
  (W5_of m c main_arg4 (by decide)).trans <| (W4_of m c main_arg4 (by decide)).trans <| (W3_of m c main_arg4 (by decide)).trans <|
  (W2_of_ne m c main_arg4 (by decide)).trans <| (W1_of m c main_arg4 (by decide)).trans rfl
theorem W8_arg5 (c : Dev nD) : W8 m c (Proc.devRef .tc main_arg5) = m ((c : Thread nD τ).loc main_arg5) :=
  (W8_of_ne m c main_arg5 (by decide)).trans <| (W7_of m c main_arg5 (by decide)).trans <|
  ((W6_arr m c 1).trans (((data1 (V5 m) c).arrAt_in 1 rfl _).trans (data1_A (V5 m) c 1))).trans <|
  (W5_of m c main_arg5 (by decide)).trans <| (W4_of m c main_arg5 (by decide)).trans <| (W3_of m c main_arg5 (by decide)).trans <|
  (W2_of_ne m c main_arg5 (by decide)).trans <| (W1_of m c main_arg5 (by decide)).trans rfl
theorem W8_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <|
  (W5_of m c main_arg6 (by decide)).trans <| (W4_of m c main_arg6 (by decide)).trans <| (W3_of m c main_arg6 (by decide)).trans <|
  (W2_of_ne m c main_arg6 (by decide)).trans <| (W1_of m c main_arg6 (by decide)).trans rfl

set_option backward.isDefEq.respectTransparency.types false in
/-- THE RUN, at any instance: from any memory with zero counters every weakly fair execution of @main terminates,
    nothing faulting; the final memory holds the decoder's result at the last contents' value there, and every
    argument as launched. -/
theorem run : θ_run defs (onTc (τ := τ) (main (F := F))) ⟨m, fun _ => 0, ρ⟩ (fun r => ∀ c : Dev nD,
      r.2.mem ((c.tc : Thread nD τ).loc main_v52) = W8 m c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v52 (by decide)),
       (h c _ (mem_uc main_arg0 (by decide))).trans (W8_arg0 m c),
       (h c _ (mem_uc main_arg1 (by decide))).trans (W8_arg1 m c),
       (h c _ (mem_uc main_arg2 (by decide))).trans (W8_arg2 m c),
       (h c _ (mem_uc main_arg3 (by decide))).trans (W8_arg3 m c),
       (h c _ (mem_uc main_arg4 (by decide))).trans (W8_arg4 m c),
       (h c _ (mem_uc main_arg5 (by decide))).trans (W8_arg5 m c),
       (h c _ (mem_uc main_arg6 (by decide))).trans (W8_arg6 m c)⟩)

end Cert.Kernel.Hand

end
-- ==== Proof.KI.R0.lean ====
/-
  The first scaled product, one row block at a time. Grid point t of the first kernel region holds rows
  1024·t … 1024·t + 1023 of the feature matrix, the whole first weight matrix and the same rows of the
  column of source-degree factors; it stores, into the same rows of the result, the matrix product of the
  two scaled row by row by the factor. This module says what each window's staging buffer holds before and
  after the body at every point, proves the body's triple, and packages both as the region's proof data and
  its body obligation, for ANY contents V the region is entered from.
-/
import proofs.«125719_j32100585570938_1_alg».proof.Proof.Gen.KernelIdeal.Launch
import proofs.«125719_j32100585570938_1_alg».proof.Proof.Gen.KernelIdeal.Skeleton
import proofs.«125719_j32100585570938_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows: the staging buffer holds the point's block, fetched there or not. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix: one block, fetched once, found at every point. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The factors' rows. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rx0 : Rect S1024x512 := Rect.unit (s := S1024x512) ![0, 0] S1024x512.size inb_S1024x512_S1024x512_0_0
abbrev rw0 : Rect S512x256 := Rect.unit (s := S512x256) ![0, 0] S512x256.size inb_S512x256_S512x256_0_0
abbrev rn0 : Rect S1024x1 := Rect.unit (s := S1024x1) ![0, 0] S1024x1.size inb_S1024x1_S1024x1_0_0
abbrev ro0 : Rect S1024x256 := Rect.unit (s := S1024x256) ![0, 0] S1024x256.size inb_S1024x256_S1024x256_0_0

/-- The result window's buffer after the body: its one store, of the scaled product of the three loads. -/
def scaled0 (x : Vec F S1024x512 .f32) (w : Vec F S512x256 .f32) (n : Vec F S1024x1 .f32) : Vec F S1024x256 .f32 :=
  View.canon [⟨ro0, k0_pay1 (View.ld x rx0) (View.ld w rw0) (View.ld n rn0)⟩]

/-- The one store covers the buffer. -/
theorem cover0 (p : Vec F S1024x256 .f32) (y : S1024x256.Idx) :
    ∃ pc ∈ ([⟨ro0, p⟩] : List (View.Piece (Elt F) S1024x256 .f32)), y ∈ pc.1.set :=
  View.cover_of_tiled [⟨ro0, p⟩] S1024x256.size (by rfl) y

set_option maxHeartbeats 1000000 in
/-- The body on whole staging memrefs: the inputs keep their contents, the result's buffer ends at scaled0 of them. -/
theorem triple0 (c : Dev nD) (E : Set ℕ) (i : grid0.Coords)
    (a1 : Memref sig .tc .vmem S1024x512 .f32) (h1 : a1.IsWhole) (a2 : Memref sig .tc .vmem S512x256 .f32) (h2 : a2.IsWhole)
    (a3 : Memref sig .tc .vmem S1024x1 .f32) (h3 : a3.IsWhole) (a4 : Memref sig .tc .vmem S1024x256 .f32) (h4 : a4.IsWhole)
    (x : Vec F S1024x512 .f32) (w : Vec F S512x256 .f32) (n : Vec F S1024x1 .f32) (K : PUnit → sProp 𝕄) :
    iprop(owns (c : Thread nD τ) a1 fullShare x ∗ owns (c : Thread nD τ) a2 fullShare w ∗ owns (c : Thread nD τ) a3 fullShare n
        ∗ (∃ d, owns (c : Thread nD τ) a4 fullShare d)
        ∗ (iprop(owns (c : Thread nD τ) a1 fullShare x ∗ owns (c : Thread nD τ) a2 fullShare w ∗ owns (c : Thread nD τ) a3 fullShare n
            ∗ owns (c : Thread nD τ) a4 fullShare (scaled0 x w n)) -∗ K ⟨⟩))
      ⊢ wp frame (wpE (defs₀ (F := F)) Variants.none c none) E (cc0__scaled_matmul_kernel i a1 h1 a2 h2 a3 h3 a4 h4) K := by
  simp only [cc0__scaled_matmul_kernel_eq_skeleton]; unfold cc0__scaled_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-- The region's proof data at entry contents V: inputs keep their blocks, the result's buffer holds scaled0 of them. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => scaled0 (blk0 V c 0 t) (blk0 V c 1 t) (blk0 V c 2 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = blk0 V c 2 t := by dsimp only [data0]
theorem data0_after_3 (c : Dev nD) (t : Fin cfg0.N) :
    (data0 V c).after 3 t = scaled0 (blk0 V c 0 t) (blk0 V c 1 t) (blk0 V c 2 t) := by dsimp only [data0]

theorem found0_0 (c : Dev nD) (t : Fin cfg0.N) (d) : (data0 V c).before 0 t d = blk0 V c 0 t :=
  found0_0_of V (data0 V c) (data0_A V c 0) (data0_after_0 V c) t d
theorem found0_1 (c : Dev nD) (t : Fin cfg0.N) (d) : (data0 V c).before 1 t d = blk0 V c 1 t :=
  found0_1_of V (data0 V c) (data0_A V c 1) (data0_after_1 V c) t d
theorem found0_2 (c : Dev nD) (t : Fin cfg0.N) (d) : (data0 V c).before 2 t d = blk0 V c 2 t :=
  found0_2_of V (data0 V c) (data0_A V c 2) (data0_after_2 V c) t d

/-- What the body is called with at point t, the windows one by one, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (data0 V c).Φ t.succ = (data0 V c).Φ t.castSucc from rfl,
    show (data0 V c).owesAt () t.succ = (data0 V c).owesAt () t.castSucc from rfl,
    data0_after_0, data0_after_1, data0_after_2, data0_after_3]
  iintro ⟨HΦ, Ho, ⟨%d0, H0⟩, ⟨%d1, H1⟩, ⟨%d2, H2⟩, ⟨%d3, H3⟩⟩
  iapply (triple0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation0 (c : Dev nD) : BodyObligation (data0 (F := F) V c) (defs₀ (F := F)) Variants.none () Set.univ := fun t => by
  rw [bigSep_W0, bigSep_W0]
  exact body0 V c t

end Cert.KernelIdeal.Hand

end
-- ==== Proof.KI.R1.lean ====
/-
  The second scaled product, one row block at a time. Grid point t of the second kernel region holds rows
  1024·t … 1024·t + 1023 of the matrix of hidden activations, the whole second weight matrix and the same rows of the
  column of source-degree factors; it stores, into the same rows of the result, the matrix product of the
  two scaled row by row by the factor. This module says what each window's staging buffer holds before and
  after the body at every point, proves the body's triple, and packages both as the region's proof data and
  its body obligation, for ANY contents V the region is entered from.
-/
import proofs.«125719_j32100585570938_1_alg».proof.Proof.Gen.KernelIdeal.Launch
import proofs.«125719_j32100585570938_1_alg».proof.Proof.Gen.KernelIdeal.Skeleton
import proofs.«125719_j32100585570938_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation rows: the staging buffer holds the point's block, fetched there or not. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The weight matrix: one block, fetched once, found at every point. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The factors' rows. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body loads and stores through. -/
abbrev rx1 : Rect S1024x256 := Rect.unit (s := S1024x256) ![0, 0] S1024x256.size inb_S1024x256_S1024x256_0_0
abbrev rw1 : Rect S256x64 := Rect.unit (s := S256x64) ![0, 0] S256x64.size inb_S256x64_S256x64_0_0
abbrev rn1 : Rect S1024x1 := Rect.unit (s := S1024x1) ![0, 0] S1024x1.size inb_S1024x1_S1024x1_0_0
abbrev ro1 : Rect S1024x64 := Rect.unit (s := S1024x64) ![0, 0] S1024x64.size inb_S1024x64_S1024x64_0_0

/-- The result window's buffer after the body: its one store, of the scaled product of the three loads. -/
def scaled1 (x : Vec F S1024x256 .f32) (w : Vec F S256x64 .f32) (n : Vec F S1024x1 .f32) : Vec F S1024x64 .f32 :=
  View.canon [⟨ro1, k1_pay1 (View.ld x rx1) (View.ld w rw1) (View.ld n rn1)⟩]

/-- The one store covers the buffer. -/
theorem cover1 (p : Vec F S1024x64 .f32) (y : S1024x64.Idx) :
    ∃ pc ∈ ([⟨ro1, p⟩] : List (View.Piece (Elt F) S1024x64 .f32)), y ∈ pc.1.set :=
  View.cover_of_tiled [⟨ro1, p⟩] S1024x64.size (by rfl) y

set_option maxHeartbeats 1000000 in
/-- The body on whole staging memrefs: the inputs keep their contents, the result's buffer ends at scaled1 of them. -/
theorem triple1 (c : Dev nD) (E : Set ℕ) (i : grid1.Coords)
    (a1 : Memref sig .tc .vmem S1024x256 .f32) (h1 : a1.IsWhole) (a2 : Memref sig .tc .vmem S256x64 .f32) (h2 : a2.IsWhole)
    (a3 : Memref sig .tc .vmem S1024x1 .f32) (h3 : a3.IsWhole) (a4 : Memref sig .tc .vmem S1024x64 .f32) (h4 : a4.IsWhole)
    (x : Vec F S1024x256 .f32) (w : Vec F S256x64 .f32) (n : Vec F S1024x1 .f32) (K : PUnit → sProp 𝕄) :
    iprop(owns (c : Thread nD τ) a1 fullShare x ∗ owns (c : Thread nD τ) a2 fullShare w ∗ owns (c : Thread nD τ) a3 fullShare n
        ∗ (∃ d, owns (c : Thread nD τ) a4 fullShare d)
        ∗ (iprop(owns (c : Thread nD τ) a1 fullShare x ∗ owns (c : Thread nD τ) a2 fullShare w ∗ owns (c : Thread nD τ) a3 fullShare n
            ∗ owns (c : Thread nD τ) a4 fullShare (scaled1 x w n)) -∗ K ⟨⟩))
      ⊢ wp frame (wpE (defs₀ (F := F)) Variants.none c none) E (cc1__scaled_matmul_kernel i a1 h1 a2 h2 a3 h3 a4 h4) K := by
  simp only [cc1__scaled_matmul_kernel_eq_skeleton]; unfold cc1__scaled_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The region's proof data at entry contents V: inputs keep their blocks, the result's buffer holds scaled1 of them. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => scaled1 (blk1 V c 0 t) (blk1 V c 1 t) (blk1 V c 2 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = blk1 V c 2 t := by dsimp only [data1]
theorem data1_after_3 (c : Dev nD) (t : Fin cfg1.N) :
    (data1 V c).after 3 t = scaled1 (blk1 V c 0 t) (blk1 V c 1 t) (blk1 V c 2 t) := by dsimp only [data1]

theorem found1_0 (c : Dev nD) (t : Fin cfg1.N) (d) : (data1 V c).before 0 t d = blk1 V c 0 t :=
  found1_0_of V (data1 V c) (data1_A V c 0) (data1_after_0 V c) t d
theorem found1_1 (c : Dev nD) (t : Fin cfg1.N) (d) : (data1 V c).before 1 t d = blk1 V c 1 t :=
  found1_1_of V (data1 V c) (data1_A V c 1) (data1_after_1 V c) t d
theorem found1_2 (c : Dev nD) (t : Fin cfg1.N) (d) : (data1 V c).before 2 t d = blk1 V c 2 t :=
  found1_2_of V (data1 V c) (data1_A V c 2) (data1_after_2 V c) t d

/-- What the body is called with at point t, the windows one by one, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it returns. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2]
  rw [show (data1 V c).Φ t.succ = (data1 V c).Φ t.castSucc from rfl,
    show (data1 V c).owesAt () t.succ = (data1 V c).owesAt () t.castSucc from rfl,
    data1_after_0, data1_after_1, data1_after_2, data1_after_3]
  iintro ⟨HΦ, Ho, ⟨%d0, H0⟩, ⟨%d1, H1⟩, ⟨%d2, H2⟩, ⟨%d3, H3⟩⟩
  iapply (triple1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation1 (c : Dev nD) : BodyObligation (data1 (F := F) V c) (defs₀ (F := F)) Variants.none () Set.univ := fun t => by
  rw [bigSep_W1, bigSep_W1]
  exact body1 V c t

end Cert.KernelIdeal.Hand

end
-- ==== Proof.KI.R2.lean ====
/-
  The decoder, one output tile at a time. Grid point t = (i, j) of the third kernel region holds rows
  1024·i … of the embedding matrix in its first window and rows 1024·j … of THE SAME matrix in its second, and
  stores the logistic function of the product of the first block with the transpose of the second into tile
  (i, j) of the result. Both input windows read one array, so the region holds that array in two halves of the
  full share, one per window. This module says what each window's staging buffer holds before and after the body
  at every point, proves the body's triple, and packages both as the region's proof data and its body
  obligation, for ANY contents V the region is entered from.
-/
import proofs.«125719_j32100585570938_1_alg».proof.Proof.Gen.KernelIdeal.Launch
import proofs.«125719_j32100585570938_1_alg».proof.Proof.Gen.KernelIdeal.Skeleton
import proofs.«125719_j32100585570938_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block: fetched when the row coordinate moves, found at every point. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The column block. -/
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body loads and stores through. -/
abbrev rz2 : Rect S1024x64 := Rect.unit (s := S1024x64) ![0, 0] S1024x64.size inb_S1024x64_S1024x64_0_0
abbrev ro2 : Rect S1024x1024 := Rect.unit (s := S1024x1024) ![0, 0] S1024x1024.size inb_S1024x1024_S1024x1024_0_0

/-- The result window's buffer after the body: its one store, the logistic of the product of the two loads. -/
def decoded2 (zi zj : Vec F S1024x64 .f32) : Vec F S1024x1024 .f32 :=
  View.canon [⟨ro2, k2_pay1 (View.ld zi rz2) (View.ld zj rz2)⟩]

/-- The one store covers the buffer. -/
theorem cover2 (p : Vec F S1024x1024 .f32) (y : S1024x1024.Idx) :
    ∃ pc ∈ ([⟨ro2, p⟩] : List (View.Piece (Elt F) S1024x1024 .f32)), y ∈ pc.1.set :=
  View.cover_of_tiled [⟨ro2, p⟩] S1024x1024.size (by rfl) y

set_option maxHeartbeats 1000000 in
/-- The body on whole staging memrefs: the inputs keep their contents, the result's buffer ends at decoded2 of them. -/
theorem triple2 (c : Dev nD) (E : Set ℕ) (i : grid2.Coords)
    (a2 : Memref sig .tc .vmem S1024x64 .f32) (h2 : a2.IsWhole) (a3 : Memref sig .tc .vmem S1024x64 .f32) (h3 : a3.IsWhole)
    (a4 : Memref sig .tc .vmem S1024x1024 .f32) (h4 : a4.IsWhole)
    (zi zj : Vec F S1024x64 .f32) (K : PUnit → sProp 𝕄) :
    iprop(owns (c : Thread nD τ) a2 fullShare zi ∗ owns (c : Thread nD τ) a3 fullShare zj
        ∗ (∃ d, owns (c : Thread nD τ) a4 fullShare d)
        ∗ (iprop(owns (c : Thread nD τ) a2 fullShare zi ∗ owns (c : Thread nD τ) a3 fullShare zj
            ∗ owns (c : Thread nD τ) a4 fullShare (decoded2 zi zj)) -∗ K ⟨⟩))
      ⊢ wp frame (wpE (defs₀ (F := F)) Variants.none c none) E (cc2__decoder_kernel i a2 h2 a3 h3 a4 h4) K := by
  simp only [cc2__decoder_kernel_eq_skeleton]; unfold cc2__decoder_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The region's proof data at entry contents V: inputs keep their blocks, the result's buffer holds decoded2 of
    them; the two input windows hold the left and the right half of their common array's full share. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => decoded2 (blk2 V c 0 t) (blk2 V c 1 t)
  Φ _ := Pipeline.ΦA spec2 c
  q w := match w with
    | ⟨0, _⟩ => (fullShare : PosShare TreeShare).left
    | ⟨1, _⟩ => (fullShare : PosShare TreeShare).right
    | ⟨2, _⟩ => fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blk2 V c 0 t := by dsimp only [data2]
theorem data2_after_1 (c : Dev nD) (t : Fin cfg2.N) : (data2 V c).after 1 t = blk2 V c 1 t := by dsimp only [data2]
theorem data2_after_2 (c : Dev nD) (t : Fin cfg2.N) :
    (data2 V c).after 2 t = decoded2 (blk2 V c 0 t) (blk2 V c 1 t) := by dsimp only [data2]

theorem found2_0 (c : Dev nD) (t : Fin cfg2.N) (d) : (data2 V c).before 0 t d = blk2 V c 0 t :=
  found2_0_of V (data2 V c) (data2_A V c 0) (data2_after_0 V c) t d
theorem found2_1 (c : Dev nD) (t : Fin cfg2.N) (d) : (data2 V c).before 1 t d = blk2 V c 1 t :=
  found2_1_of V (data2 V c) (data2_A V c 1) (data2_after_1 V c) t d

/-- What the body is called with at point t, the windows one by one, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (triple2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem obligation2 (c : Dev nD) : BodyObligation (data2 (F := F) V c) (defs₀ (F := F)) Variants.none () Set.univ := fun t => by
  rw [bigSep_W2, bigSep_W2]
  exact body2 V c t

end Cert.KernelIdeal.Hand

end
-- ==== Proof.KI.Vals.lean ====
/-
  The contents of the core's buffers between the items of @main: the launch contents, then after each stretch of host
  operations what the stretch computes, and after each kernel region the region's result array at what its
  write-backs leave, every other buffer as the region found it. Each region's proof data is taken at the contents
  the region is entered from.
-/
import proofs.«125719_j32100585570938_1_alg».proof.Proof.KI.R0
import proofs.«125719_j32100585570938_1_alg».proof.Proof.KI.R1
import proofs.«125719_j32100585570938_1_alg».proof.Proof.KI.R2
import proofs.«125719_j32100585570938_1_alg».proof.Proof.Gen.KernelIdeal.Regions
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- After the first stretch (the degrees and their inverse square roots): the first region's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first region: its arrays at what the pipeline leaves. -/
def W2 (c : Dev nD) : Valuation τ sig (Elt F) :=
  Pipeline.withArrays spec0 c (W1 m c) fun w => (data0 (V1 m) c).arrAt w cfg0.N
abbrev V2 : (c : Dev nD) → (b : Ref sig .tc) → Buf (Elt F) ((c : Thread nD τ).loc b) := fun c b => W2 m c b
/-- After the first layer's aggregation, its activation, and the reshaped factors: the second region's entry. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev V5 : (c : Dev nD) → (b : Ref sig .tc) → Buf (Elt F) ((c : Thread nD τ).loc b) := fun c b => W5 m c b
/-- After the second region. -/
def W6 (c : Dev nD) : Valuation τ sig (Elt F) :=
  Pipeline.withArrays spec1 c (W5 m c) fun w => (data1 (V5 m) c).arrAt w cfg1.N
abbrev V6 : (c : Dev nD) → (b : Ref sig .tc) → Buf (Elt F) ((c : Thread nD τ).loc b) := fun c b => W6 m c b
/-- After the second layer's aggregation: the third region's entry. -/
abbrev W7 (c : Dev nD) : Valuation τ sig (Elt F) := StableHlo.after hostOps2 (W6 m c)
abbrev V7 : (c : Dev nD) → (b : Ref sig .tc) → Buf (Elt F) ((c : Thread nD τ).loc b) := fun c b => W7 m c b
/-- After the third region: only its result array changes (its two input windows read one array and leave it). -/
def W8 (c : Dev nD) : Valuation τ sig (Elt F) :=
  Function.update (W7 m c) (Proc.devRef .tc (Pipeline.arrRef spec2 2)) ((data2 (V7 m) c).arrAt 2 cfg2.N)
abbrev V8 : (c : Dev nD) → (b : Ref sig .tc) → Buf (Elt F) ((c : Thread nD τ).loc b) := fun c b => W8 m c b

theorem W2_arr (c : Dev nD) (w : Fin cfg0.W) :
    W2 m c (Proc.devRef .tc (Pipeline.arrRef spec0 w)) = (data0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem exit0_arr (c : Dev nD) (w : Fin cfg0.W) : (data0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg1.W) :
    W6 m c (Proc.devRef .tc (Pipeline.arrRef spec1 w)) = (data1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem exit1_arr (c : Dev nD) (w : Fin cfg1.W) : (data1 (V5 m) c).arrAt w cfg1.N = V6 m c (Pipeline.arrRef spec1 w) :=
  (W6_arr m c w).symm
theorem exit1_rest (c : Dev nD) : ∀ b, b ∉ Finset.univ.image (Pipeline.arrRef spec1) → V6 m c b = V5 m c b :=
  fun b hb => W6_of_ne m c b fun w e => hb (Finset.mem_image.mpr ⟨w, Finset.mem_univ _, e⟩)

theorem W8_out (c : Dev nD) : W8 m c (Proc.devRef .tc (Pipeline.arrRef spec2 2)) = (data2 (V7 m) c).arrAt 2 cfg2.N := by
  unfold W8; exact Function.update_self ..
theorem W8_of_ne (c : Dev nD) (b : Ref sig .tc) (hb : Pipeline.arrRef spec2 2 ≠ b) :
    W8 m c (Proc.devRef .tc b) = W7 m c (Proc.devRef .tc b) := by
  unfold W8; exact Function.update_of_ne (StableHlo.devRef_ne_of_ne (Ne.symm hb)) ..

/-- What each item leaves alone. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W7_of (c : Dev nD) (r : Ref sig .tc) (h : r ∉ hostOps2_W) : W7 m c r = W6 m c r :=
  StableHlo.after_of_writes_sub hostOps2 _ hostOps2_writes h

/-- The tables' admissible contents: no region has a prefetched table. -/
abbrev adm : (p : Fin 3) → (pcfgs (F := F) p).Adm := fun p => (cfgs p).toPCfg_adm

/-- Every region's proof data, each at its entry contents. -/
def pdats : (p : Fin 3) → (c : Dev nD) → Dat τ (Elt F) Unit ℕ (UR sig nD τ) ℕ (Pipeline.pin (pcfgs (F := F)) adm p) c
  | ⟨0, _⟩ => fun c => data0 (V1 m) c
  | ⟨1, _⟩ => fun c => data1 (V5 m) c
  | ⟨2, _⟩ => fun c => data2 (V7 m) c

end Cert.KernelIdeal.Hand

end
-- ==== Proof.KI.Run.lean ====
/-
  The run of @main: three stretches of host operations and three kernel regions, in order, each entered from the
  buffer contents the one before it left. Every weakly fair execution terminates, faults nowhere, and ends with the
  decoder's result array at what the third region's write-backs leave and with the seven argument arrays as launched.
-/
import proofs.«125719_j32100585570938_1_alg».proof.Proof.KI.Vals
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A stretch of host operations from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart. -/
abbrev Tₙ (c : Dev nD) : sProp 𝕄 := iprop(StableHlo.held (c : Thread nD τ) (Pipeline.ucRefs τ sig) (W8 m c) ∗ ∃ r, prngReg c r)

set_option backward.isDefEq.respectTransparency.types false in
/-- Kernel region 0 over the thread state: entered from every unscoped buffer at the contents before it, left at the
    contents after it. Its arrays are split out of the unscoped buffers and put back at their exit contents; the
    generator register passes into the region's invariant and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the contents before it, left at the
    contents after it. Its arrays are split out of the unscoped buffers and put back at their exit contents; the
    generator register passes into the region's invariant and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m) c).loose
  hwaits := Pipeline.hwaits_of_owed_zero _ _ _ _ L lv 1 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- ENTRY of the decoder's region, the arrays' part: the core's unscoped buffers at V are the region's arrays at their
    entry contents — the embedding array's buffer, held whole, split into the left and the right half of the full
    share for the two windows that read it, the result's array whole — and the unscoped rest. -/
theorem entry2_arrays (V : (c : Dev nD) → (b : Ref sig .tc) → Buf (Elt F) ((c : Thread nD τ).loc b)) (c : Dev nD) :
    (unscopedBufs c (V c) : sProp 𝕄) ⊢ iprop((data2 V c).arrays (data2 V c).A ∗ Pipeline.unscopedRest spec2 c (V c)) := by
  rw [Pipeline.unscopedBufs_split₀ (cfgs) 2 winFacts₀2.arr_unscoped c (V c)]
  refine sep_mono ?_ .rfl
  unfold Pipeline.arrBufs Dat.arrays
  rw [bigSep_W2, show Finset.image (Pipeline.arrRef (cfgs 2).spec) Finset.univ = {main_v51, main_v52} from by decide,
    bigSep_insert (by decide), bigSep_singleton,
    show (cfg2.win 0).arr.view.set = Finset.univ from (arr_whole2 0).set_eq_univ,
    show (cfg2.win 2).arr.view.set = Finset.univ from (arr_whole2 2).set_eq_univ]
  show _ ⊢ iprop((((c : Thread nD τ).loc main_v51) ↦{(fullShare : PosShare TreeShare).left} V c main_v51)
      ∗ (((c : Thread nD τ).loc main_v51) ↦{(fullShare : PosShare TreeShare).right} V c main_v51)
      ∗ (((c : Thread nD τ).loc main_v52) ↦{fullShare} V c main_v52))
  exact (sep_mono (pointsTo_share (PosShare.mem_left_op_right (fullShare : PosShare TreeShare))).1 .rfl).trans sep_assoc.1

set_option backward.isDefEq.respectTransparency.types false in
/-- EXIT of the decoder's region, the arrays' part: the two halves of the embedding array still hold its entry
    contents (an input window's array is never written), so they join to the whole buffer again; with the result's
    array at what the write-backs left and the unscoped rest, they are the core's unscoped buffers at any contents V'
    that agree with these. -/
theorem exit2_arrays (V : (c : Dev nD) → (b : Ref sig .tc) → Buf (Elt F) ((c : Thread nD τ).loc b)) (c : Dev nD)
    (V' : (b : Ref sig .tc) → Buf (Elt F) ((c : Thread nD τ).loc b))
    (h51 : V' main_v51 = V c main_v51) (h52 : V' main_v52 = (data2 V c).arrAt 2 cfg2.N)
    (hrest : ∀ b, b ∉ Finset.univ.image (Pipeline.arrRef spec2) → V' b = V c b) :
    iprop((data2 V c).arrays ((data2 V c).arrAt · cfg2.N) ∗ Pipeline.unscopedRest spec2 c (V c)) ⊢ (unscopedBufs c V' : sProp 𝕄) := by
  rw [Pipeline.unscopedBufs_split₀ (cfgs) 2 winFacts₀2.arr_unscoped c V']
  refine sep_mono ?_ (Entails.of_eq ?_)
  · unfold Pipeline.arrBufs Dat.arrays
    rw [bigSep_W2, show Finset.image (Pipeline.arrRef (cfgs 2).spec) Finset.univ = {main_v51, main_v52} from by decide,
      bigSep_insert (by decide), bigSep_singleton,
      show (cfg2.win 0).arr.view.set = Finset.univ from (arr_whole2 0).set_eq_univ,
      show (cfg2.win 2).arr.view.set = Finset.univ from (arr_whole2 2).set_eq_univ,
      h51, h52]
    beta_reduce
    rw [(data2 V c).arrAt_in 0 rfl _, (data2 V c).arrAt_in 1 rfl _]
    show iprop((((c : Thread nD τ).loc main_v51) ↦{(fullShare : PosShare TreeShare).left} V c main_v51)
        ∗ (((c : Thread nD τ).loc main_v51) ↦{(fullShare : PosShare TreeShare).right} V c main_v51)
        ∗ (((c : Thread nD τ).loc main_v52) ↦{fullShare} (data2 V c).arrAt 2 cfg2.N)) ⊢ _
    exact sep_assoc.2.trans (sep_mono (pointsTo_share (PosShare.mem_left_op_right (fullShare : PosShare TreeShare))).2 .rfl)
  · unfold Pipeline.unscopedRest
    exact bigSep_congr fun b hb => by rw [hrest b (Finset.mem_sdiff.mp hb).2]

set_option backward.isDefEq.respectTransparency.types false in
/-- Kernel region 2, the decoder. Its two input windows read ONE array: at entry that array's buffer, held whole, is
    split into the two halves of the full share, one per window; at exit the halves, which still hold the entry
    contents, are joined again. The result's array is held whole throughout. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (obligation2 (V7 m) c).loose
  hwaits := Pipeline.hwaits_of_owed_zero _ _ _ _ L lv 2 fun _ _ => rfl
  pre c := iprop(StableHlo.held (c : Thread nD τ) (Pipeline.ucRefs τ sig) (W7 m c) ∗ Rest c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := entry2_arrays (V7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (V7 m c))
        ⊢ (unscopedBufs c (V8 m c) : sProp 𝕄) :=
      exit2_arrays (V7 m) c (V8 m c) (W8_of_ne m c main_v51 (by decide)) (W8_out m c)
      (fun b hb => W8_of_ne m c b fun e => hb (Finset.mem_image.mpr ⟨2, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m) ]

/-- The arguments end as launched: no stretch writes one and no region changes one. -/
theorem W8_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <|
  (W5_of m c main_arg0 (by decide)).trans <| (W4_of m c main_arg0 (by decide)).trans <| (W3_of m c main_arg0 (by decide)).trans <|
  ((W2_arr m c 0).trans (((data0 (V1 m) c).arrAt_in 0 rfl _).trans (data0_A (V1 m) c 0))).trans <| (W1_of m c main_arg0 (by decide)).trans rfl
theorem W8_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
  (W5_of m c main_arg1 (by decide)).trans <| (W4_of m c main_arg1 (by decide)).trans <| (W3_of m c main_arg1 (by decide)).trans <|
  (W2_of_ne m c main_arg1 (by decide)).trans <| (W1_of m c main_arg1 (by decide)).trans rfl
theorem W8_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
  (W5_of m c main_arg2 (by decide)).trans <| (W4_of m c main_arg2 (by decide)).trans <| (W3_of m c main_arg2 (by decide)).trans <|
  (W2_of_ne m c main_arg2 (by decide)).trans <| (W1_of m c main_arg2 (by decide)).trans rfl
theorem W8_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <|
  (W5_of m c main_arg3 (by decide)).trans <| (W4_of m c main_arg3 (by decide)).trans <| (W3_of m c main_arg3 (by decide)).trans <|
  ((W2_arr m c 1).trans (((data0 (V1 m) c).arrAt_in 1 rfl _).trans (data0_A (V1 m) c 1))).trans <| (W1_of m c main_arg3 (by decide)).trans rfl
theorem W8_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
  (W5_of m c main_arg4 (by decide)).trans <| (W4_of m c main_arg4 (by decide)).trans <| (W3_of m c main_arg4 (by decide)).trans <|
  (W2_of_ne m c main_arg4 (by decide)).trans <| (W1_of m c main_arg4 (by decide)).trans rfl
theorem W8_arg5 (c : Dev nD) : W8 m c (Proc.devRef .tc main_arg5) = m ((c : Thread nD τ).loc main_arg5) :=
  (W8_of_ne m c main_arg5 (by decide)).trans <| (W7_of m c main_arg5 (by decide)).trans <|
  ((W6_arr m c 1).trans (((data1 (V5 m) c).arrAt_in 1 rfl _).trans (data1_A (V5 m) c 1))).trans <|
  (W5_of m c main_arg5 (by decide)).trans <| (W4_of m c main_arg5 (by decide)).trans <| (W3_of m c main_arg5 (by decide)).trans <|
  (W2_of_ne m c main_arg5 (by decide)).trans <| (W1_of m c main_arg5 (by decide)).trans rfl
theorem W8_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <|
  (W5_of m c main_arg6 (by decide)).trans <| (W4_of m c main_arg6 (by decide)).trans <| (W3_of m c main_arg6 (by decide)).trans <|
  (W2_of_ne m c main_arg6 (by decide)).trans <| (W1_of m c main_arg6 (by decide)).trans rfl

set_option backward.isDefEq.respectTransparency.types false in
/-- THE RUN, at any instance: from any memory with zero counters every weakly fair execution of @main terminates,
    nothing faulting; the final memory holds the decoder's result at the last contents' value there, and every
    argument as launched. -/
theorem run : θ_run defs (onTc (τ := τ) (main (F := F))) ⟨m, fun _ => 0, ρ⟩ (fun r => ∀ c : Dev nD,
      r.2.mem ((c.tc : Thread nD τ).loc main_v52) = W8 m c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v52 (by decide)),
       (h c _ (mem_uc main_arg0 (by decide))).trans (W8_arg0 m c),
       (h c _ (mem_uc main_arg1 (by decide))).trans (W8_arg1 m c),
       (h c _ (mem_uc main_arg2 (by decide))).trans (W8_arg2 m c),
       (h c _ (mem_uc main_arg3 (by decide))).trans (W8_arg3 m c),
       (h c _ (mem_uc main_arg4 (by decide))).trans (W8_arg4 m c),
       (h c _ (mem_uc main_arg5 (by decide))).trans (W8_arg5 m c),
       (h c _ (mem_uc main_arg6 (by decide))).trans (W8_arg6 m c)⟩)

end Cert.KernelIdeal.Hand

end
-- ==== Proof.KI.Stages.lean ====
/-
  What the host operations of the kernel's program leave in the buffers its three regions read, stated as the
  reference program's stage functions of the launch contents. The two programs apply the same operations to the
  same arguments and differ only in how they number their values; each stretch of host operations is folded over the
  contents it starts from, and the resulting composite is the reference's composite term for term.
-/
import proofs.«125719_j32100585570938_1_alg».proof.Proof.KI.Vals
import proofs.«125719_j32100585570938_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (c : Dev nD)

-- the launch contents of the arguments of @main
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)

/-- The inverse square root of the source degrees: the same fold of the first stretch in both programs. -/
theorem stage_v10 : W1 m c main_v10 = Cert.ReferenceIdeal.Read.val_main_v10 (F := F) a1 := by
  show StableHlo.after hostOps0 (W0 m c) (Proc.devRef .tc main_v10) = _
  after_results
  rfl

/-- The inverse square root of the target degrees. -/
theorem stage_v14 : W1 m c main_v14 = Cert.ReferenceIdeal.Read.val_main_v14 (F := F) a2 := by
  show StableHlo.after hostOps0 (W0 m c) (Proc.devRef .tc main_v14) = _
  after_results
  rfl

/-- The source factors as a column: the first region's third window. -/
theorem stage_v15 : W1 m c main_v15
    = shapeCast S8192x1 (Cert.ReferenceIdeal.Read.val_main_v10 (F := F) a1) shapeCasts_S8192_S8192x1 := by
  show StableHlo.after hostOps0 (W0 m c) (Proc.devRef .tc main_v15) = _
  after_results
  rfl

/-- The first stretch writes neither matrix the first region multiplies. -/
theorem stage_arg0 : W1 m c main_arg0 = a0 := W1_of m c main_arg0 (by decide)
theorem stage_arg3 : W1 m c main_arg3 = a3 := W1_of m c main_arg3 (by decide)

/-- A buffer that neither the first region nor the stretches up to the second region write holds, at the second
    region's entry, what the first stretch left there. -/
theorem W5_keep (r : Ref sig .tc) (h12 : r ∉ hostOps1_2_W) (h11 : r ∉ hostOps1_1_W) (h1 : r ∉ hostOps1_W)
    (h0 : ∀ w, Pipeline.arrRef spec0 w ≠ r) : W5 m c r = W1 m c r :=
  (W5_of m c r h12).trans <| (W4_of m c r h11).trans <| (W3_of m c r h1).trans (W2_of_ne m c r h0)

/-- The same through the second region. -/
theorem W6_keep (r : Ref sig .tc) (hs1 : ∀ w, Pipeline.arrRef spec1 w ≠ r) (h12 : r ∉ hostOps1_2_W)
    (h11 : r ∉ hostOps1_1_W) (h1 : r ∉ hostOps1_W) (h0 : ∀ w, Pipeline.arrRef spec0 w ≠ r) :
    W6 m c r = W1 m c r :=
  (W6_of_ne m c r hs1).trans (W5_keep m c r h12 h11 h1 h0)

/-- The first layer's aggregation from any contents: the gather of the scaled product along the source list, its
    scatter-sum along the target list, the target factors and the bias — the reference's composite once the
    stretch's inputs are the reference's. -/
theorem layer1_of (V : Valuation τ sig (Elt F))
    (x0 : (⟨S8192x512, .f32⟩ : BufTy).Contents (Elt F)) (x1 x2 : (⟨S262144, .i32⟩ : BufTy).Contents (Elt F))
    (x3 : (⟨S512x256, .f32⟩ : BufTy).Contents (Elt F)) (x4 : (⟨S256, .f32⟩ : BufTy).Contents (Elt F))
    (h16 : V (Proc.devRef .tc main_v16) = Cert.ReferenceIdeal.Read.val_main_v18 (F := F) x0 x1 x3)
    (h1 : V (Proc.devRef .tc main_arg1) = x1) (h2 : V (Proc.devRef .tc main_arg2) = x2)
    (h14 : V (Proc.devRef .tc main_v14) = Cert.ReferenceIdeal.Read.val_main_v14 (F := F) x2)
    (h4 : V (Proc.devRef .tc main_arg4) = x4) :
    StableHlo.after hostOps1 V (Proc.devRef .tc main_v32) = Cert.ReferenceIdeal.Read.val_main_v34 (F := F) x0 x1 x2 x3 x4 := by
  after_results_simp
  rw [h16, h1, h2, h14, h4]
  rfl

/-- The activation from any contents: the maximum with the broadcast zero. -/
theorem relu_of (V : Valuation τ sig (Elt F)) (x : (⟨S8192x256, .f32⟩ : BufTy).Contents (Elt F))
    (h32 : V (Proc.devRef .tc main_v32) = x) :
    StableHlo.after hostOps1_1 V (Proc.devRef .tc main_v33)
      = maximumf x (Cert.ReferenceIdeal.Read.val_main_call0_v0 (F := F)) := by
  after_results
  rw [h32]
  rfl

/-- The source factors reshaped to a column, from any contents. -/
theorem column_of (V : Valuation τ sig (Elt F)) (x : (⟨S8192, .f32⟩ : BufTy).Contents (Elt F))
    (h10 : V (Proc.devRef .tc main_v10) = x) :
    StableHlo.after hostOps1_2 V (Proc.devRef .tc main_v34) = shapeCast S8192x1 x shapeCasts_S8192_S8192x1 := by
  after_results
  rw [h10]
  rfl

/-- The activated first layer: the second stretch folds the first region's result with the edge lists, the target
    factors and the bias, the activation follows, and the stretch after it does not write the buffer. -/
theorem stage_v33 (h16 : W2 m c main_v16 = Cert.ReferenceIdeal.Read.val_main_v18 (F := F) a0 a1 a3) :
    W5 m c main_v33 = Cert.ReferenceIdeal.Read.val_main_v35 (F := F) a0 a1 a2 a3 a4 := by
  rw [W5_of m c main_v33 (by decide)]
  exact relu_of (W3 m c) (Cert.ReferenceIdeal.Read.val_main_v34 (F := F) a0 a1 a2 a3 a4)
    (layer1_of (W2 m c) a0 a1 a2 a3 a4 h16
      ((W2_of_ne m c main_arg1 (by decide)).trans (W1_of m c main_arg1 (by decide)))
      ((W2_of_ne m c main_arg2 (by decide)).trans (W1_of m c main_arg2 (by decide)))
      ((W2_of_ne m c main_v14 (by decide)).trans (stage_v14 m c))
      ((W2_of_ne m c main_arg4 (by decide)).trans (W1_of m c main_arg4 (by decide))))

/-- The source factors as a column again: the second region's third window. -/
theorem stage_v34 : W5 m c main_v34
    = shapeCast S8192x1 (Cert.ReferenceIdeal.Read.val_main_v10 (F := F) a1) shapeCasts_S8192_S8192x1 :=
  column_of (W4 m c) _ <|
    (W4_of m c main_v10 (by decide)).trans <| (W3_of m c main_v10 (by decide)).trans <|
      (W2_of_ne m c main_v10 (by decide)).trans (stage_v10 m c)

/-- Nothing before the second region writes the matrix it multiplies. -/
theorem stage_arg5 : W5 m c main_arg5 = a5 :=
  (W5_keep m c main_arg5 (by decide) (by decide) (by decide) (by decide)).trans (W1_of m c main_arg5 (by decide))

/-- The second layer's aggregation from any contents: the same chain at sixty-four columns. -/
theorem layer2_of (V : Valuation τ sig (Elt F))
    (x0 : (⟨S8192x512, .f32⟩ : BufTy).Contents (Elt F)) (x1 x2 : (⟨S262144, .i32⟩ : BufTy).Contents (Elt F))
    (x3 : (⟨S512x256, .f32⟩ : BufTy).Contents (Elt F)) (x4 : (⟨S256, .f32⟩ : BufTy).Contents (Elt F))
    (x5 : (⟨S256x64, .f32⟩ : BufTy).Contents (Elt F)) (x6 : (⟨S64, .f32⟩ : BufTy).Contents (Elt F))
    (h35 : V (Proc.devRef .tc main_v35) = Cert.ReferenceIdeal.Read.val_main_v39 (F := F) x0 x1 x2 x3 x4 x5)
    (h1 : V (Proc.devRef .tc main_arg1) = x1) (h2 : V (Proc.devRef .tc main_arg2) = x2)
    (h14 : V (Proc.devRef .tc main_v14) = Cert.ReferenceIdeal.Read.val_main_v14 (F := F) x2)
    (h6 : V (Proc.devRef .tc main_arg6) = x6) :
    StableHlo.after hostOps2 V (Proc.devRef .tc main_v51)
      = Cert.ReferenceIdeal.Read.val_main_v55 (F := F) x0 x1 x2 x3 x4 x5 x6 := by
  after_results_simp
  rw [h35, h1, h2, h14, h6]
  rfl

/-- The embedding the third region reads twice: the last stretch folds the second region's result. -/
theorem stage_v51 (h35 : W6 m c main_v35 = Cert.ReferenceIdeal.Read.val_main_v39 (F := F) a0 a1 a2 a3 a4 a5) :
    W7 m c main_v51 = Cert.ReferenceIdeal.Read.val_main_v55 (F := F) a0 a1 a2 a3 a4 a5 a6 :=
  layer2_of (W6 m c) a0 a1 a2 a3 a4 a5 a6 h35
    ((W6_keep m c main_arg1 (by decide) (by decide) (by decide) (by decide) (by decide)).trans (W1_of m c main_arg1 (by decide)))
    ((W6_keep m c main_arg2 (by decide) (by decide) (by decide) (by decide) (by decide)).trans (W1_of m c main_arg2 (by decide)))
    ((W6_keep m c main_v14 (by decide) (by decide) (by decide) (by decide) (by decide)).trans (stage_v14 m c))
    ((W6_keep m c main_arg6 (by decide) (by decide) (by decide) (by decide) (by decide)).trans (W1_of m c main_arg6 (by decide)))

end Cert.KernelIdeal.Hand

end
-- ==== Proof.Spec.lean ====
/-
  What the three kernel regions compute, index by index, over the extended reals.

  scaledProduct x w n is the matrix product x·w with row r multiplied by the factor n[r, 0]:
      out[r, c] = (Σ_k x[r, k] · w[k, c]) · n[r, 0].
  decodedPair zi zj is the logistic function of the product of zi with the transpose of zj:
      out[r, c] = logistic (Σ_k zi[r, k] · zj[c, k]).
  Both are stated for any extents, so the same definition reads a 1024-row block and the whole 8192-row array.
-/
import Idealize.ShloMosaic.PureOps.Ideal
import Idealize.ShloMosaic.Lib.ValueIdx

noncomputable section

open scoped BigOperators

namespace Cert.Spec

open Idealize.ShloMosaic Idealize.ShloMosaic.ValueIdx

/-- The product x·w, row r scaled by n[r, 0]. -/
def scaledProduct {R K C : ℕ} (x : FVec Ideal ⟨2, ![R, K]⟩ .f32) (w : FVec Ideal ⟨2, ![K, C]⟩ .f32)
    (n : FVec Ideal ⟨2, ![R, 1]⟩ .f32) : FVec Ideal ⟨2, ![R, C]⟩ .f32 :=
  fun i => (∑ k : Fin K, x (ix2 (i 0) k) * w (ix2 k (i 1))) * n (ix2 (i 0) (0 : Fin 1))

theorem scaledProduct_apply {R K C : ℕ} (x : FVec Ideal ⟨2, ![R, K]⟩ .f32) (w : FVec Ideal ⟨2, ![K, C]⟩ .f32)
    (n : FVec Ideal ⟨2, ![R, 1]⟩ .f32) (r : Fin R) (c : Fin C) :
    scaledProduct x w n (ix2 r c) = (∑ k : Fin K, x (ix2 r k) * w (ix2 k c)) * n (ix2 r (0 : Fin 1)) := rfl

/-- The logistic of zi·zjᵀ. -/
def decodedPair {A B K : ℕ} (zi : FVec Ideal ⟨2, ![A, K]⟩ .f32) (zj : FVec Ideal ⟨2, ![B, K]⟩ .f32) :
    FVec Ideal ⟨2, ![A, B]⟩ .f32 :=
  fun i => Ideal.logistic (∑ k : Fin K, zi (ix2 (i 0) k) * zj (ix2 (i 1) k))

theorem decodedPair_apply {A B K : ℕ} (zi : FVec Ideal ⟨2, ![A, K]⟩ .f32) (zj : FVec Ideal ⟨2, ![B, K]⟩ .f32)
    (r : Fin A) (c : Fin B) :
    decodedPair zi zj (ix2 r c) = Ideal.logistic (∑ k : Fin K, zi (ix2 r k) * zj (ix2 c k)) := rfl

end Cert.Spec

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.KI.Val0.lean ====
/-
  The value of the first scaled product. Grid point t of the first kernel region writes rows 1024·t … 1024·t + 1023
  of its result. Entry (p, q) of what it writes is the contraction over k of the feature block at (p, k) with the
  weight matrix at (k, q), times the factor at (p, 0): the narrowing of the two operands is the identity on extended
  reals, the accumulator starts at zero, the cast of the factor column to its own shape is the identity and the
  broadcast of the column reads it at row p. The feature and factor blocks at point t are rows 1024·t + p of their
  arrays and the weight block is the whole weight matrix, so the block written at t is the block at t of the scaled
  product of the whole arrays. Row r lies in the block of point r / 1024, so the eight blocks cover the result and
  after the last point the result array is the scaled product of the three arrays.
-/
import proofs.«125719_j32100585570938_1_alg».proof.Proof.KI.R0
import proofs.«125719_j32100585570938_1_alg».proof.Proof.Spec
import proofs.«125719_j32100585570938_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## One entry of the block product -/

/-- The left operand's row coordinate is the result's row. -/
theorem lhs_mm0_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- The left operand's column coordinate is the contracted one. -/
theorem lhs_mm0_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- The right operand's row coordinate is the contracted one. -/
theorem rhs_mm0_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- The right operand's column coordinate is the result's column. -/
theorem rhs_mm0_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The block product into a zero accumulator, at (p, q): the sum over k of left (p, k) times right (k, q). -/
theorem mm0_apply {φ₁ φ₂ : FTy} (a : FVec Ideal S1024x512 φ₁) (b : FVec Ideal S512x256 φ₂) (p : Fin 1024) (q : Fin 256) :
    matmul dot_S1024x512_S512x256_S1024x256_1_0_0_1_n_n none a b (constant (F := Ideal) S1024x256 .f32 0x00000000#32) (ix2 p q)
      = ∑ k : Fin 512, a (ix2 p k) * b (ix2 k q) := by
  refine (Ideal.matmul_constant_zero_apply dot_S1024x512_S512x256_S1024x256_1_0_0_1_n_n none a b (ix2 p q)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun c => Fin.ext (by
    match c with
    | ⟨0, _⟩ => exact lhs_mm0_0 _ _
    | ⟨1, _⟩ => exact (lhs_mm0_1 _ _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun c => Fin.ext (by
    match c with
    | ⟨0, _⟩ => exact (rhs_mm0_0 _ _).trans hk
    | ⟨1, _⟩ => exact rhs_mm0_1 _ _)
  rw [el, er]

/-- The body's stored value at (p, q) is the scaled product of its three loaded blocks there. -/
theorem pay0_apply (x : Vec Ideal S1024x512 .f32) (w : Vec Ideal S512x256 .f32) (n : Vec Ideal S1024x1 .f32)
    (p : Fin 1024) (q : Fin 256) :
    k0_pay1 (F := Ideal) x w n (ix2 p q) = Cert.Spec.scaledProduct x w n (ix2 p q) := by
  unfold k0_pay1
  simp only [shapeCast_self]
  rw [Cert.Spec.scaledProduct_apply]
  refine (mulf_apply _ _ (ix2 p q)).trans ?_
  rw [mm0_apply, Cert.LibKeepdims.bcast_col]
  rfl

/-- The body's stored value at (p, q), when its loaded blocks are row r of the feature array and of the factor
    column and the weight matrix itself: the scaled product of the three arrays at (r, q). -/
theorem stored0_apply (X : FVec Ideal S8192x512 .f32) (W : FVec Ideal S512x256 .f32) (N : FVec Ideal S8192x1 .f32)
    (x : Vec Ideal S1024x512 .f32) (w : Vec Ideal S512x256 .f32) (n : Vec Ideal S1024x1 .f32)
    (p : Fin 1024) (q : Fin 256) (r : Fin 8192)
    (hx : ∀ k : Fin 512, x (ix2 p k) = X (ix2 r k)) (hw : ∀ k : Fin 512, w (ix2 k q) = W (ix2 k q))
    (hn : n (ix2 p (0 : Fin 1)) = N (ix2 r (0 : Fin 1)))
    (y : S1024x256.Idx) (hy : y = ix2 p q) (i : S8192x256.Idx) (hi : i = ix2 r q) :
    k0_pay1 (F := Ideal) x w n y = Cert.Spec.scaledProduct X W N i := by
  subst hy; subst hi
  rw [pay0_apply, Cert.Spec.scaledProduct_apply, Cert.Spec.scaledProduct_apply, hn]
  exact congrArg (· * N (ix2 r (0 : Fin 1))) (Finset.sum_congr rfl fun k _ => by rw [hx k, hw k])

/-! ## The blocks of the three inputs and of the result -/

theorem hz0 : (![0, 0] : Fin 2 → Nat) = fun _ => 0 := funext fun a => by fin_cases a <;> rfl

/-- The block indices, decided over the eight points: the feature rows, the factor rows and the result rows
    move with the point, on their one column block; the weight matrix is one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The feature block at point t, at (p, k), is the feature array at (1024·t + p, k). -/
theorem blk0_0_apply (c : Dev nD) (t : Fin cfg0.N) (p : Fin 1024) (k : Fin 512) (r : Fin 8192)
    (hr : r.val = 1024 * t.val + p.val) :
    (blk0 (F := Ideal) V c 0 t : Vec Ideal S1024x512 .f32) (ix2 p k) = (V c main_arg0 : FVec Ideal S8192x512 .f32) (ix2 r k) := by
  obtain ⟨e0, e1, -⟩ := idx0 t
  unfold blk0
  rw [View.read_apply]
  show V c main_arg0 _ = V c main_arg0 _
  congr 1
  funext a
  apply Fin.ext
  match a with
  | ⟨0, _⟩ => show win0_0.index t (0 : Fin 2) * 1024 + 1 * p.val = r.val; omega
  | ⟨1, _⟩ => show win0_0.index t (1 : Fin 2) * 512 + 1 * k.val = k.val; omega

/-- The weight block at any point is the weight matrix. -/
theorem blk0_1_apply (c : Dev nD) (t : Fin cfg0.N) (k : Fin 512) (q : Fin 256) :
    (blk0 (F := Ideal) V c 1 t : Vec Ideal S512x256 .f32) (ix2 k q) = (V c main_arg3 : FVec Ideal S512x256 .f32) (ix2 k q) := by
  obtain ⟨-, -, e0, e1, -⟩ := idx0 t
  unfold blk0
  rw [View.read_apply]
  show V c main_arg3 _ = V c main_arg3 _
  congr 1
  funext a
  apply Fin.ext
  match a with
  | ⟨0, _⟩ => show win0_1.index t (0 : Fin 2) * 512 + 1 * k.val = k.val; omega
  | ⟨1, _⟩ => show win0_1.index t (1 : Fin 2) * 256 + 1 * q.val = q.val; omega

/-- The factor block at point t, at (p, 0), is the factor column at (1024·t + p, 0). -/
theorem blk0_2_apply (c : Dev nD) (t : Fin cfg0.N) (p : Fin 1024) (u : Fin 1) (r : Fin 8192)
    (hr : r.val = 1024 * t.val + p.val) :
    (blk0 (F := Ideal) V c 2 t : Vec Ideal S1024x1 .f32) (ix2 p u) = (V c main_v15 : FVec Ideal S8192x1 .f32) (ix2 r u) := by
  obtain ⟨-, -, -, -, e0, e1, -⟩ := idx0 t
  unfold blk0
  rw [View.read_apply]
  show V c main_v15 _ = V c main_v15 _
  congr 1
  funext a
  apply Fin.ext
  match a with
  | ⟨0, _⟩ => show win0_2.index t (0 : Fin 2) * 1024 + 1 * p.val = r.val; omega
  | ⟨1, _⟩ => show win0_2.index t (1 : Fin 2) * 1 + 1 * u.val = u.val; omega

/-- What point t writes back is the block at t of the scaled product of the three arrays. -/
theorem flushed0_eq (c : Dev nD) (t : Fin cfg0.N) :
    (data0 (F := Ideal) V c).flushed 3 t = ((cfg0.win 3).blk t).view.read (Elt Ideal)
      (@Cert.Spec.scaledProduct 8192 512 256 (V c main_arg0) (V c main_arg3) (V c main_v15)) := by
  show (cfg0.win 3).cut (grid0.coords t) ((data0 V c).after 3 t) = _
  rw [data0_after_3]
  unfold scaled0
  rw [View.canon_unit_zero hz0]
  simp only [View.ld_unit_zero (S := S1024x512) hz0, View.ld_unit_zero (S := S512x256) hz0, View.ld_unit_zero (S := S1024x1) hz0]
  funext j
  rw [View.read_apply]
  have hN : cfg0.N = 8 := N_0
  have ht : t.val < 8 := hN ▸ t.isLt
  have hj0 : (j 0).val < 1024 := (j 0).isLt
  have hj1 : (j 1).val < 256 := (j 1).isLt
  obtain ⟨-, -, -, -, -, -, e0, e1⟩ := idx0 t
  refine stored0_apply (V c main_arg0) (V c main_arg3) (V c main_v15) (blk0 V c 0 t) (blk0 V c 1 t) (blk0 V c 2 t)
    ⟨(j 0).val, hj0⟩ ⟨(j 1).val, hj1⟩ ⟨1024 * t.val + (j 0).val, by omega⟩
    (fun k => blk0_0_apply V c t _ k _ rfl) (fun k => blk0_1_apply V c t k _) (blk0_2_apply V c t _ _ _ rfl) _ ?_ _ ?_
  · funext a
    apply Fin.ext
    match a with
    | ⟨0, _⟩ => rfl
    | ⟨1, _⟩ => rfl
  · funext a
    apply Fin.ext
    match a with
    | ⟨0, _⟩ => show win0_3.index t (0 : Fin 2) * 1024 + 1 * (j 0).val = 1024 * t.val + (j 0).val; omega
    | ⟨1, _⟩ => show win0_3.index t (1 : Fin 2) * 256 + 1 * (j 1).val = (j 1).val; omega

/-- Row r of the result lies in the block of point r / 1024. -/
theorem cover0_rows (i : S8192x256.Idx) :
    ∃ t : Fin cfg0.N, (cfg0.win 3).flush t = true ∧ i ∈ ((cfg0.win 3).blk t).view.set := by
  have h0 : (i 0).val < 8192 := (i 0).isLt
  have h1 : (i 1).val < 256 := (i 1).isLt
  have hN : cfg0.N = 8 := N_0
  have hlt : (i 0).val / 1024 < cfg0.N := by rw [hN]; omega
  obtain ⟨-, -, -, -, -, -, e0, e1⟩ := idx0 ⟨(i 0).val / 1024, hlt⟩
  refine ⟨⟨(i 0).val / 1024, hlt⟩, flush0_3 _, ?_⟩
  show i ∈ ((View.whole main_v16).slice (win0_3.rect ⟨(i 0).val / 1024, hlt⟩)).set
  rw [View.set_slice_whole, Rect.mem_set_unit]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, hlt⟩ (1 : Fin 2) * 256 ≤ (i 1).val
      ∧ (i 1).val < win0_3.index ⟨(i 0).val / 1024, hlt⟩ (1 : Fin 2) * 256 + 256
    rw [e1]
    omega

/-- After the eight points the result array is the scaled product of the feature array, the weight matrix
    and the factor column. -/
theorem region0_value (c : Dev nD) :
    (data0 (F := Ideal) V c).arrAt 3 cfg0.N
      = @Cert.Spec.scaledProduct 8192 512 256 (V c main_arg0) (V c main_arg3) (V c main_v15) :=
  (data0 (F := Ideal) V c).arrAt_eq_of_cover 3 _ (fun t _ => flushed0_eq V c t) cover0_rows

end Cert.KernelIdeal.Hand

end
-- ==== Proof.KI.Val1.lean ====
/-
  The value of the second scaled product. Grid point t of the second kernel region writes rows 1024·t … 1024·t + 1023
  of its result. Entry (p, q) of what it writes is the contraction over k of the activation block at (p, k) with the
  weight matrix at (k, q), times the factor at (p, 0): the narrowing of the two operands is the identity on extended
  reals, the accumulator starts at zero, the cast of the factor column to its own shape is the identity and the
  broadcast of the column reads it at row p. The activation and factor blocks at point t are rows 1024·t + p of their
  arrays and the weight block is the whole weight matrix, so the block written at t is the block at t of the scaled
  product of the whole arrays. Row r lies in the block of point r / 1024, so the eight blocks cover the result and
  after the last point the result array is the scaled product of the three arrays.
-/
import proofs.«125719_j32100585570938_1_alg».proof.Proof.KI.R1
import proofs.«125719_j32100585570938_1_alg».proof.Proof.Spec
import proofs.«125719_j32100585570938_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## One entry of the block product -/

/-- The left operand's row coordinate is the result's row. -/
theorem lhs_mm1_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
/-- The left operand's column coordinate is the contracted one. -/
theorem lhs_mm1_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
/-- The right operand's row coordinate is the contracted one. -/
theorem rhs_mm1_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
/-- The right operand's column coordinate is the result's column. -/
theorem rhs_mm1_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The block product into a zero accumulator, at (p, q): the sum over k of left (p, k) times right (k, q). -/
theorem mm1_apply {φ₁ φ₂ : FTy} (a : FVec Ideal S1024x256 φ₁) (b : FVec Ideal S256x64 φ₂) (p : Fin 1024) (q : Fin 64) :
    matmul dot_S1024x256_S256x64_S1024x64_1_0_0_1_n_n none a b (constant (F := Ideal) S1024x64 .f32 0x00000000#32) (ix2 p q)
      = ∑ k : Fin 256, a (ix2 p k) * b (ix2 k q) := by
  refine (Ideal.matmul_constant_zero_apply dot_S1024x256_S256x64_S1024x64_1_0_0_1_n_n none a b (ix2 p q)).trans ?_
  rw [← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k := funext fun c => Fin.ext (by
    match c with
    | ⟨0, _⟩ => exact lhs_mm1_0 _ _
    | ⟨1, _⟩ => exact (lhs_mm1_1 _ _).trans hk)
  have er : dot_S1024x256_S256x64_S1024x64_1_0_0_1_n_n.rhsIdx (ix2 p q) ((contrEquiv1 dot_S1024x256_S256x64_S1024x64_1_0_0_1_n_n 256 rfl rfl).symm k) = ix2 k q := funext fun c => Fin.ext (by
    match c with
    | ⟨0, _⟩ => exact (rhs_mm1_0 _ _).trans hk
    | ⟨1, _⟩ => exact rhs_mm1_1 _ _)
  rw [el, er]

/-- The body's stored value at (p, q) is the scaled product of its three loaded blocks there. -/
theorem pay1_apply (x : Vec Ideal S1024x256 .f32) (w : Vec Ideal S256x64 .f32) (n : Vec Ideal S1024x1 .f32)
    (p : Fin 1024) (q : Fin 64) :
    k1_pay1 (F := Ideal) x w n (ix2 p q) = Cert.Spec.scaledProduct x w n (ix2 p q) := by
  unfold k1_pay1
  simp only [shapeCast_self]
  rw [Cert.Spec.scaledProduct_apply]
  refine (mulf_apply _ _ (ix2 p q)).trans ?_
  rw [mm1_apply, Cert.LibKeepdims.bcast_col]
  rfl

/-- The body's stored value at (p, q), when its loaded blocks are row r of the activation array and of the factor
    column and the weight matrix itself: the scaled product of the three arrays at (r, q). -/
theorem stored1_apply (X : FVec Ideal S8192x256 .f32) (W : FVec Ideal S256x64 .f32) (N : FVec Ideal S8192x1 .f32)
    (x : Vec Ideal S1024x256 .f32) (w : Vec Ideal S256x64 .f32) (n : Vec Ideal S1024x1 .f32)
    (p : Fin 1024) (q : Fin 64) (r : Fin 8192)
    (hx : ∀ k : Fin 256, x (ix2 p k) = X (ix2 r k)) (hw : ∀ k : Fin 256, w (ix2 k q) = W (ix2 k q))
    (hn : n (ix2 p (0 : Fin 1)) = N (ix2 r (0 : Fin 1)))
    (y : S1024x64.Idx) (hy : y = ix2 p q) (i : S8192x64.Idx) (hi : i = ix2 r q) :
    k1_pay1 (F := Ideal) x w n y = Cert.Spec.scaledProduct X W N i := by
  subst hy; subst hi
  rw [pay1_apply, Cert.Spec.scaledProduct_apply, Cert.Spec.scaledProduct_apply, hn]
  exact congrArg (· * N (ix2 r (0 : Fin 1))) (Finset.sum_congr rfl fun k _ => by rw [hx k, hw k])

/-! ## The blocks of the three inputs and of the result -/

theorem hz1 : (![0, 0] : Fin 2 → Nat) = fun _ => 0 := funext fun a => by fin_cases a <;> rfl

/-- The block indices, decided over the eight points: the activation rows, the factor rows and the result rows
    move with the point, on their one column block; the weight matrix is one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The activation block at point t, at (p, k), is the activation array at (1024·t + p, k). -/
theorem blk1_0_apply (c : Dev nD) (t : Fin cfg1.N) (p : Fin 1024) (k : Fin 256) (r : Fin 8192)
    (hr : r.val = 1024 * t.val + p.val) :
    (blk1 (F := Ideal) V c 0 t : Vec Ideal S1024x256 .f32) (ix2 p k) = (V c main_v33 : FVec Ideal S8192x256 .f32) (ix2 r k) := by
  obtain ⟨e0, e1, -⟩ := idx1 t
  unfold blk1
  rw [View.read_apply]
  show V c main_v33 _ = V c main_v33 _
  congr 1
  funext a
  apply Fin.ext
  match a with
  | ⟨0, _⟩ => show win1_0.index t (0 : Fin 2) * 1024 + 1 * p.val = r.val; omega
  | ⟨1, _⟩ => show win1_0.index t (1 : Fin 2) * 256 + 1 * k.val = k.val; omega

/-- The weight block at any point is the weight matrix. -/
theorem blk1_1_apply (c : Dev nD) (t : Fin cfg1.N) (k : Fin 256) (q : Fin 64) :
    (blk1 (F := Ideal) V c 1 t : Vec Ideal S256x64 .f32) (ix2 k q) = (V c main_arg5 : FVec Ideal S256x64 .f32) (ix2 k q) := by
  obtain ⟨-, -, e0, e1, -⟩ := idx1 t
  unfold blk1
  rw [View.read_apply]
  show V c main_arg5 _ = V c main_arg5 _
  congr 1
  funext a
  apply Fin.ext
  match a with
  | ⟨0, _⟩ => show win1_1.index t (0 : Fin 2) * 256 + 1 * k.val = k.val; omega
  | ⟨1, _⟩ => show win1_1.index t (1 : Fin 2) * 64 + 1 * q.val = q.val; omega

/-- The factor block at point t, at (p, 0), is the factor column at (1024·t + p, 0). -/
theorem blk1_2_apply (c : Dev nD) (t : Fin cfg1.N) (p : Fin 1024) (u : Fin 1) (r : Fin 8192)
    (hr : r.val = 1024 * t.val + p.val) :
    (blk1 (F := Ideal) V c 2 t : Vec Ideal S1024x1 .f32) (ix2 p u) = (V c main_v34 : FVec Ideal S8192x1 .f32) (ix2 r u) := by
  obtain ⟨-, -, -, -, e0, e1, -⟩ := idx1 t
  unfold blk1
  rw [View.read_apply]
  show V c main_v34 _ = V c main_v34 _
  congr 1
  funext a
  apply Fin.ext
  match a with
  | ⟨0, _⟩ => show win1_2.index t (0 : Fin 2) * 1024 + 1 * p.val = r.val; omega
  | ⟨1, _⟩ => show win1_2.index t (1 : Fin 2) * 1 + 1 * u.val = u.val; omega

/-- What point t writes back is the block at t of the scaled product of the three arrays. -/
theorem flushed1_eq (c : Dev nD) (t : Fin cfg1.N) :
    (data1 (F := Ideal) V c).flushed 3 t = ((cfg1.win 3).blk t).view.read (Elt Ideal)
      (@Cert.Spec.scaledProduct 8192 256 64 (V c main_v33) (V c main_arg5) (V c main_v34)) := by
  show (cfg1.win 3).cut (grid1.coords t) ((data1 V c).after 3 t) = _
  rw [data1_after_3]
  unfold scaled1
  rw [View.canon_unit_zero hz1]
  simp only [View.ld_unit_zero (S := S1024x256) hz1, View.ld_unit_zero (S := S256x64) hz1, View.ld_unit_zero (S := S1024x1) hz1]
  funext j
  rw [View.read_apply]
  have hN : cfg1.N = 8 := N_1
  have ht : t.val < 8 := hN ▸ t.isLt
  have hj0 : (j 0).val < 1024 := (j 0).isLt
  have hj1 : (j 1).val < 64 := (j 1).isLt
  obtain ⟨-, -, -, -, -, -, e0, e1⟩ := idx1 t
  refine stored1_apply (V c main_v33) (V c main_arg5) (V c main_v34) (blk1 V c 0 t) (blk1 V c 1 t) (blk1 V c 2 t)
    ⟨(j 0).val, hj0⟩ ⟨(j 1).val, hj1⟩ ⟨1024 * t.val + (j 0).val, by omega⟩
    (fun k => blk1_0_apply V c t _ k _ rfl) (fun k => blk1_1_apply V c t k _) (blk1_2_apply V c t _ _ _ rfl) _ ?_ _ ?_
  · funext a
    apply Fin.ext
    match a with
    | ⟨0, _⟩ => rfl
    | ⟨1, _⟩ => rfl
  · funext a
    apply Fin.ext
    match a with
    | ⟨0, _⟩ => show win1_3.index t (0 : Fin 2) * 1024 + 1 * (j 0).val = 1024 * t.val + (j 0).val; omega
    | ⟨1, _⟩ => show win1_3.index t (1 : Fin 2) * 64 + 1 * (j 1).val = (j 1).val; omega

/-- Row r of the result lies in the block of point r / 1024. -/
theorem cover1_rows (i : S8192x64.Idx) :
    ∃ t : Fin cfg1.N, (cfg1.win 3).flush t = true ∧ i ∈ ((cfg1.win 3).blk t).view.set := by
  have h0 : (i 0).val < 8192 := (i 0).isLt
  have h1 : (i 1).val < 64 := (i 1).isLt
  have hN : cfg1.N = 8 := N_1
  have hlt : (i 0).val / 1024 < cfg1.N := by rw [hN]; omega
  obtain ⟨-, -, -, -, -, -, e0, e1⟩ := idx1 ⟨(i 0).val / 1024, hlt⟩
  refine ⟨⟨(i 0).val / 1024, hlt⟩, flush1_3 _, ?_⟩
  show i ∈ ((View.whole main_v35).slice (win1_3.rect ⟨(i 0).val / 1024, hlt⟩)).set
  rw [View.set_slice_whole, Rect.mem_set_unit]
  intro a
  match a with
  | ⟨0, _⟩ =>
    show win1_3.index ⟨(i 0).val / 1024, hlt⟩ (0 : Fin 2) * 1024 ≤ (i 0).val
      ∧ (i 0).val < win1_3.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win1_3.index ⟨(i 0).val / 1024, hlt⟩ (1 : Fin 2) * 64 ≤ (i 1).val
      ∧ (i 1).val < win1_3.index ⟨(i 0).val / 1024, hlt⟩ (1 : Fin 2) * 64 + 64
    rw [e1]
    omega

/-- After the eight points the result array is the scaled product of the activation array, the weight matrix
    and the factor column. -/
theorem region1_value (c : Dev nD) :
    (data1 (F := Ideal) V c).arrAt 3 cfg1.N
      = @Cert.Spec.scaledProduct 8192 256 64 (V c main_v33) (V c main_arg5) (V c main_v34) :=
  (data1 (F := Ideal) V c).arrAt_eq_of_cover 3 _ (fun t _ => flushed1_eq V c t) cover1_rows

end Cert.KernelIdeal.Hand

end
-- ==== Proof.KI.Val2.lean ====
/-
  The value of the decoder region. Grid point t = (i, j) stores into tile (i, j) of the result the logistic
  function of the product of rows 1024·i … of the embedding matrix with the transpose of its rows 1024·j …;
  the 64 tiles cover the 8192 × 8192 result, so after the last point the result array is the logistic function
  of the product of the embedding matrix with its own transpose, entry by entry, whatever the matrix holds.
-/
import proofs.«125719_j32100585570938_1_alg».proof.Proof.KI.R2
import proofs.«125719_j32100585570938_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## One tile's entry: the logistic of a row of the first block against a row of the second -/

/-- The left operand of the tile's product is read at the entry's row … -/
theorem lhs_decoder_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- … and the summation index, -/
theorem lhs_decoder_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- the right operand at the summation index … -/
theorem rhs_decoder_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- … and the entry's column. -/
theorem rhs_decoder_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The transposed second block at (k, q) is the block at (q, k). -/
theorem transposed2_apply (x : FVec Ideal S1024x64 .bf16) (k : Fin 64) (q : Fin 1024) :
    transpose S64x1024 [1, 0] x transposes_S1024x64_p1_0_S64x1024 (ix2 k q) = x (ix2 q k) :=
  transpose_apply [1, 0] x transposes_S1024x64_p1_0_S64x1024 (ix2 k q) (ix2 q k) (fun b => match b with
    | ⟨0, _⟩ => rfl
    | ⟨1, _⟩ => rfl)

/-- The product of the first block with the transposed second, into the zero accumulator, at (p, q): the sum over the
    64 columns of the products of row p of the first with row q of the second. -/
theorem product2_apply (x : FVec Ideal S1024x64 .bf16) (y : FVec Ideal S64x1024 .bf16) (p q : Fin 1024) :
    matmul dot_S1024x64_S64x1024_S1024x1024_1_0_0_1_n_n none x y (constant (F := Ideal) S1024x1024 .f32 0x00000000#32) (ix2 p q)
      = ∑ k : Fin 64, x (ix2 p k) * y (ix2 k q) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p q) ((ValueIdx.contrEquiv1 dot_S1024x64_S64x1024_S1024x1024_1_0_0_1_n_n 64 rfl rfl).symm k) = ix2 p k := funext fun a => Fin.ext (by
    match a with
    | ⟨0, _⟩ => exact lhs_decoder_0 _ _
    | ⟨1, _⟩ => exact (lhs_decoder_1 _ _).trans hk)
  have er : dot_S1024x64_S64x1024_S1024x1024_1_0_0_1_n_n.rhsIdx (ix2 p q) ((ValueIdx.contrEquiv1 dot_S1024x64_S64x1024_S1024x1024_1_0_0_1_n_n 64 rfl rfl).symm k) = ix2 k q := funext fun a => Fin.ext (by
    match a with
    | ⟨0, _⟩ => exact (rhs_decoder_0 _ _).trans hk
    | ⟨1, _⟩ => exact rhs_decoder_1 _ _)
  rw [el, er]

/-- THE TILE AT AN ENTRY: what the body stores at (p, q) is the logistic of row p of its first block against row q
    of its second. -/
theorem k2_pay1_apply (zi zj : Vec Ideal S1024x64 .f32) (p q : Fin 1024) :
    k2_pay1 (F := Ideal) zi zj (ix2 p q) = Cert.Spec.decodedPair zi zj (ix2 p q) := by
  unfold k2_pay1
  simp only [shapeCast_self]
  rw [Cert.Spec.decodedPair_apply]
  show Ideal.logistic (matmul dot_S1024x64_S64x1024_S1024x1024_1_0_0_1_n_n none (truncf .bf16 zi bitsLt_bf16_f32)
      (transpose S64x1024 [1, 0] (truncf .bf16 zj bitsLt_bf16_f32) transposes_S1024x64_p1_0_S64x1024)
      (constant (F := Ideal) S1024x1024 .f32 0x00000000#32) (ix2 p q)) = _
  rw [product2_apply]
  refine congrArg Ideal.logistic (Finset.sum_congr rfl fun k _ => ?_)
  rw [transposed2_apply]
  rfl

/-- The same as one equation of tiles. -/
theorem k2_pay1_eq (zi zj : Vec Ideal S1024x64 .f32) : k2_pay1 (F := Ideal) zi zj = Cert.Spec.decodedPair zi zj := by
  funext j
  obtain ⟨p, q, rfl⟩ : ∃ (p : Fin 1024) (q : Fin 1024), j = ix2 p q := ⟨j 0, j 1, eq_ix2 j⟩
  exact k2_pay1_apply zi zj p q

/-! ## From tiles to the array -/

variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices over the grid: the first window follows the point's row coordinate, the second its column
    coordinate, the result's tile both; point t has row coordinate t / 8 and column coordinate t % 8. -/
theorem tile_indices2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) = t.val / 8
    ∧ win2_2.index t (1 : Fin 2) = t.val % 8 :=
  (by decide +kernel : ∀ t : Fin grid2.N, _)

/-- The first window's block at point t is rows 1024·(row coordinate) … of the embedding matrix. -/
theorem rows_block2_apply (c : Dev nD) (t : Fin cfg2.N) (p : Fin 1024) (k : Fin 64) (r : Fin 8192)
    (hr : r.val = win2_2.index t (0 : Fin 2) * 1024 + p.val) :
    (blk2 V c 0 t : Vec Ideal S1024x64 .f32) (ix2 p k) = (V c main_v51 : S8192x64.Idx → Elt Ideal .f32) (ix2 r k) := by
  obtain ⟨e00, e01, -⟩ := tile_indices2 t
  unfold blk2
  rw [View.read_apply]
  show V c main_v51 _ = V c main_v51 _
  congr 1
  funext a
  apply Fin.ext
  match a with
  | ⟨0, _⟩ => show win2_0.index t (0 : Fin 2) * 1024 + 1 * p.val = r.val; omega
  | ⟨1, _⟩ => show win2_0.index t (1 : Fin 2) * 64 + 1 * k.val = k.val; omega

/-- The second window's block at point t is rows 1024·(column coordinate) … of the same matrix. -/
theorem cols_block2_apply (c : Dev nD) (t : Fin cfg2.N) (q : Fin 1024) (k : Fin 64) (s : Fin 8192)
    (hs : s.val = win2_2.index t (1 : Fin 2) * 1024 + q.val) :
    (blk2 V c 1 t : Vec Ideal S1024x64 .f32) (ix2 q k) = (V c main_v51 : S8192x64.Idx → Elt Ideal .f32) (ix2 s k) := by
  obtain ⟨-, -, e10, e11, -⟩ := tile_indices2 t
  unfold blk2
  rw [View.read_apply]
  show V c main_v51 _ = V c main_v51 _
  congr 1
  funext a
  apply Fin.ext
  match a with
  | ⟨0, _⟩ => show win2_1.index t (0 : Fin 2) * 1024 + 1 * q.val = s.val; omega
  | ⟨1, _⟩ => show win2_1.index t (1 : Fin 2) * 64 + 1 * k.val = k.val; omega

/-- A tile of the whole: when Z0 is rows 1024·a … of E and Z1 rows 1024·b …, the decoded pair of the two blocks at
    (x0, x1) is the decoded pair of E with itself at (1024·a + x0, 1024·b + x1). -/
theorem decodedPair_tile (Z0 Z1 : FVec Ideal S1024x64 .f32) (E : FVec Ideal S8192x64 .f32) (a b : ℕ)
    (h0 : ∀ (p : Fin 1024) (k : Fin 64) (r : Fin 8192), r.val = a * 1024 + p.val → Z0 (ix2 p k) = E (ix2 r k))
    (h1 : ∀ (q : Fin 1024) (k : Fin 64) (s : Fin 8192), s.val = b * 1024 + q.val → Z1 (ix2 q k) = E (ix2 s k))
    (x : S1024x1024.Idx) (i : S8192x8192.Idx) (hr : (i 0).val = a * 1024 + (x 0).val) (hs : (i 1).val = b * 1024 + (x 1).val) :
    Cert.Spec.decodedPair Z0 Z1 x = Cert.Spec.decodedPair E E i := by
  obtain ⟨p, q, rfl⟩ : ∃ (p : Fin 1024) (q : Fin 1024), x = ix2 p q := ⟨x 0, x 1, eq_ix2 x⟩
  obtain ⟨r, s, rfl⟩ : ∃ (r : Fin 8192) (s : Fin 8192), i = ix2 r s := ⟨i 0, i 1, eq_ix2 i⟩
  rw [Cert.Spec.decodedPair_apply, Cert.Spec.decodedPair_apply]
  exact congrArg Ideal.logistic (Finset.sum_congr rfl fun k _ => by rw [h0 p k r hr, h1 q k s hs])

/-- The embedding matrix as the region finds it, at its literal type. -/
abbrev embedding2 (c : Dev nD) : FVec Ideal S8192x64 .f32 := V c main_v51

/-- WHAT POINT t WRITES BACK is tile t of the decoded pair of the embedding matrix with itself. -/
theorem flushed2_eq (c : Dev nD) (t : Fin cfg2.N) :
    (data2 (F := Ideal) V c).flushed 2 t
      = ((cfg2.win 2).blk t).view.read (Elt Ideal) (Cert.Spec.decodedPair (embedding2 V c) (embedding2 V c)) := by
  show (cfg2.win 2).cut (grid2.coords t) ((data2 V c).after 2 t) = _
  rw [data2_after_2]
  unfold decoded2
  rw [View.canon_unit_zero zero_offsets2]
  simp only [View.ld_unit_zero (S := S1024x64) zero_offsets2]
  rw [k2_pay1_eq]
  funext j
  rw [View.read_apply]
  have hj0 : (j 0).val < 1024 := (j 0).isLt
  have hj1 : (j 1).val < 1024 := (j 1).isLt
  exact decodedPair_tile (blk2 V c 0 t) (blk2 V c 1 t) (embedding2 V c) (win2_2.index t (0 : Fin 2)) (win2_2.index t (1 : Fin 2))
    (fun p k r hr => rows_block2_apply V c t p k r hr) (fun q k s hs => cols_block2_apply V c t q k s hs)
    ((cfg2.win 2).xinj (grid2.coords t) j) (((cfg2.win 2).blk t).view.emb j)
    (by show win2_2.index t (0 : Fin 2) * 1024 + 1 * (j 0).val = win2_2.index t (0 : Fin 2) * 1024 + (j 0).val; omega)
    (by show win2_2.index t (1 : Fin 2) * 1024 + 1 * (j 1).val = win2_2.index t (1 : Fin 2) * 1024 + (j 1).val; omega)

/-- An entry of the result is in point t's tile iff each coordinate is in the tile's range on its axis. -/
theorem mem_tile2 (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v52).slice (win2_2.rect t)).set ↔ _
  rw [View.set_slice_whole, Rect.mem_set_unit]
  exact Iff.rfl

/-- THE TILES COVER THE RESULT: entry (r, s) lies in the tile of the point with coordinates (r / 1024, s / 1024). -/
theorem tiles_cover2 (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  have hN : cfg2.N = 64 := N_2
  have ht : (i 0).val / 1024 * 8 + (i 1).val / 1024 < cfg2.N := by rw [hN]; omega
  obtain ⟨-, -, -, -, e20, e21⟩ := tile_indices2 ⟨(i 0).val / 1024 * 8 + (i 1).val / 1024, ht⟩
  have f20 : win2_2.index ⟨(i 0).val / 1024 * 8 + (i 1).val / 1024, ht⟩ (0 : Fin 2) = (i 0).val / 1024 := by
    rw [e20]; show ((i 0).val / 1024 * 8 + (i 1).val / 1024) / 8 = _; omega
  have f21 : win2_2.index ⟨(i 0).val / 1024 * 8 + (i 1).val / 1024, ht⟩ (1 : Fin 2) = (i 1).val / 1024 := by
    rw [e21]; show ((i 0).val / 1024 * 8 + (i 1).val / 1024) % 8 = _; omega
  refine ⟨⟨(i 0).val / 1024 * 8 + (i 1).val / 1024, ht⟩, flush2_2 _, ?_⟩
  rw [mem_tile2]
  intro a
  match a with
  | ⟨0, _⟩ =>
    show win2_2.index _ (0 : Fin 2) * 1024 ≤ (i 0).val ∧ (i 0).val < win2_2.index _ (0 : Fin 2) * 1024 + 1024
    rw [f20]; omega
  | ⟨1, _⟩ =>
    show win2_2.index _ (1 : Fin 2) * 1024 ≤ (i 1).val ∧ (i 1).val < win2_2.index _ (1 : Fin 2) * 1024 + 1024
    rw [f21]; omega

/-- THE RESULT ARRAY after the 64 points: the logistic of the embedding matrix times its own transpose. -/
theorem region2_value (c : Dev nD) :
    (data2 (F := Ideal) V c).arrAt 2 cfg2.N
      = Cert.Spec.decodedPair (V c main_v51 : FVec Ideal S8192x64 .f32) (V c main_v51 : FVec Ideal S8192x64 .f32) :=
  (data2 (F := Ideal) V c).arrAt_eq_of_cover 2 (Cert.Spec.decodedPair (embedding2 V c) (embedding2 V c))
    (fun t _ => flushed2_eq V c t) tiles_cover2

end Cert.KernelIdeal.Hand

end
-- ==== Proof.RefBridge.lean ====
/-
  The reference program's three dense stages, read index by index over the extended reals.

  The first encoder stage is the product of the features with the first weight matrix, row r multiplied by the
  per-node factor at r; the second is the same with the hidden activations and the second weight matrix. Each
  is written in the reference as a matrix product times a vector broadcast first to a column and then across the
  row, so at (r, c) the factor read is the vector's entry r: the column cast of the vector reads the same entry.
  The decoder is 1 / (1 + exp (−(z·zᵀ))) entry by entry, with zᵀ a transpose read at swapped coordinates and both
  constants the word of 1.0: this is the logistic function of Σ_k z[r, k] · z[c, k].
-/
import proofs.«125719_j32100585570938_1_alg».proof.Proof.Gen.ReferenceIdeal.Read
import proofs.«125719_j32100585570938_1_alg».proof.Proof.Spec
import proofs.«125719_j32100585570938_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Bridge

open Cert.ReferenceIdeal Cert.ReferenceIdeal.Read Idealize.ShloMosaic Idealize.ShloMosaic.ValueIdx

/-- out[r, c] = (Σ_k x0[r, k] · x3[k, c]) · factor[r]: the first scaled product is stage %18. -/
theorem scaled_eq_v18 (x0 : (⟨S8192x512, .f32⟩ : BufTy).Contents (Elt Ideal)) (x1 : (⟨S262144, .i32⟩ : BufTy).Contents (Elt Ideal))
    (x3 : (⟨S512x256, .f32⟩ : BufTy).Contents (Elt Ideal)) (h : S8192.ShapeCasts S8192x1) :
    Cert.Spec.scaledProduct x0 x3 (shapeCast S8192x1 (val_main_v10 (F := Ideal) x1) h)
      = val_main_v18 (F := Ideal) x0 x1 x3 := by
  funext i
  obtain ⟨r, c, rfl⟩ : ∃ (r : Fin 8192) (c : Fin 256), i = ix2 r c := ⟨i 0, i 1, eq_ix2 i⟩
  have el : ∀ k : Fin 512, lidx_main_v15 (ix2 r c) k = ix2 r k := fun k =>
    funext fun a => Fin.ext (by match a with | ⟨0, _⟩ => rfl | ⟨1, _⟩ => rfl)
  have er : ∀ k : Fin 512, ridx_main_v15 (ix2 r c) k = ix2 k c := fun k =>
    funext fun a => Fin.ext (by match a with | ⟨0, _⟩ => rfl | ⟨1, _⟩ => rfl)
  have ev : idx_main_v16 (idx_main_v17 (ix2 r c)) = ix1 r :=
    funext fun a => Fin.ext (by match a with | ⟨0, _⟩ => rfl)
  rw [Cert.Spec.scaledProduct_apply, Cert.LibKeepdims.cast_vec_col, val_main_v18_apply, val_main_v15_apply,
    val_main_v17_apply, val_main_v16_apply, ev, Ideal.mulf_def]
  simp only [el, er]

/-- out[r, c] = (Σ_k h[r, k] · x5[k, c]) · factor[r], h the hidden activations %35: the second scaled product is
    stage %39. -/
theorem scaled_eq_v39 (x0 : (⟨S8192x512, .f32⟩ : BufTy).Contents (Elt Ideal)) (x1 x2 : (⟨S262144, .i32⟩ : BufTy).Contents (Elt Ideal))
    (x3 : (⟨S512x256, .f32⟩ : BufTy).Contents (Elt Ideal)) (x4 : (⟨S256, .f32⟩ : BufTy).Contents (Elt Ideal))
    (x5 : (⟨S256x64, .f32⟩ : BufTy).Contents (Elt Ideal)) (h : S8192.ShapeCasts S8192x1) :
    Cert.Spec.scaledProduct (val_main_v35 (F := Ideal) x0 x1 x2 x3 x4) x5
        (shapeCast S8192x1 (val_main_v10 (F := Ideal) x1) h)
      = val_main_v39 (F := Ideal) x0 x1 x2 x3 x4 x5 := by
  funext i
  obtain ⟨r, c, rfl⟩ : ∃ (r : Fin 8192) (c : Fin 64), i = ix2 r c := ⟨i 0, i 1, eq_ix2 i⟩
  have el : ∀ k : Fin 256, lidx_main_v36 (ix2 r c) k = ix2 r k := fun k =>
    funext fun a => Fin.ext (by match a with | ⟨0, _⟩ => rfl | ⟨1, _⟩ => rfl)
  have er : ∀ k : Fin 256, ridx_main_v36 (ix2 r c) k = ix2 k c := fun k =>
    funext fun a => Fin.ext (by match a with | ⟨0, _⟩ => rfl | ⟨1, _⟩ => rfl)
  have ev : idx_main_v37 (idx_main_v38 (ix2 r c)) = ix1 r :=
    funext fun a => Fin.ext (by match a with | ⟨0, _⟩ => rfl)
  rw [Cert.Spec.scaledProduct_apply, Cert.LibKeepdims.cast_vec_col, val_main_v39_apply, val_main_v36_apply,
    val_main_v38_apply, val_main_v37_apply, ev, Ideal.mulf_def]
  simp only [el, er]

/-- out[r, c] = logistic (Σ_k z[r, k] · z[c, k]), z the embeddings %55: the decoded pair is stage %63, where the
    logistic function is spelt 1 / (1 + exp (−·)). -/
theorem decoded_eq_v63 (x0 : (⟨S8192x512, .f32⟩ : BufTy).Contents (Elt Ideal)) (x1 x2 : (⟨S262144, .i32⟩ : BufTy).Contents (Elt Ideal))
    (x3 : (⟨S512x256, .f32⟩ : BufTy).Contents (Elt Ideal)) (x4 : (⟨S256, .f32⟩ : BufTy).Contents (Elt Ideal))
    (x5 : (⟨S256x64, .f32⟩ : BufTy).Contents (Elt Ideal)) (x6 : (⟨S64, .f32⟩ : BufTy).Contents (Elt Ideal)) :
    Cert.Spec.decodedPair (val_main_v55 (F := Ideal) x0 x1 x2 x3 x4 x5 x6)
        (val_main_v55 (F := Ideal) x0 x1 x2 x3 x4 x5 x6)
      = val_main_v63 (F := Ideal) x0 x1 x2 x3 x4 x5 x6 := by
  funext i
  obtain ⟨r, c, rfl⟩ : ∃ (r : Fin 8192) (c : Fin 8192), i = ix2 r c := ⟨i 0, i 1, eq_ix2 i⟩
  have el : ∀ k : Fin 64, lidx_main_v57 (ix2 r c) k = ix2 r k := fun k =>
    funext fun a => Fin.ext (by match a with | ⟨0, _⟩ => rfl | ⟨1, _⟩ => rfl)
  have er : ∀ k : Fin 64, idx_main_v56 (ridx_main_v57 (ix2 r c) k) = ix2 c k := fun k =>
    funext fun a => Fin.ext (by match a with | ⟨0, _⟩ => rfl | ⟨1, _⟩ => rfl)
  rw [Cert.Spec.decodedPair_apply, val_main_v63_apply, val_main_v62_apply, val_main_cst_12_apply,
    val_main_v61_apply, val_main_v60_apply, val_main_cst_11_apply, val_main_v59_apply, val_main_v58_apply,
    val_main_v57_apply]
  simp only [val_main_v56_apply, el, er, Ideal.ofBits_def, Cert.LibKeepdims.ofBits_one_f32]
  generalize (∑ k : Fin 64, val_main_v55 (F := Ideal) x0 x1 x2 x3 x4 x5 x6 (ix2 r k)
    * val_main_v55 (F := Ideal) x0 x1 x2 x3 x4 x5 x6 (ix2 c k)) = s
  rfl

end Cert.ReferenceIdeal.Bridge

end
-- ==== Proof.KI.Final.lean ====
/-
  The decoder's result, in the kernel's program, is the reference's. Each kernel region's result array is the
  index-by-index function its body computes of the arrays it reads; the host operations between the regions are the
  reference's own; so layer by layer the kernel program's values are the reference's stages: the first scaled
  product is the reference's product times the broadcast factors, the second likewise over the first layer's
  activations, and the logistic of the embeddings' product with their transpose is the reference's
  1 / (1 + exp (−·)) of the same product.
-/
import proofs.«125719_j32100585570938_1_alg».proof.Proof.KI.Vals
import proofs.«125719_j32100585570938_1_alg».proof.Proof.KI.Stages
import proofs.«125719_j32100585570938_1_alg».proof.Proof.KI.Val0
import proofs.«125719_j32100585570938_1_alg».proof.Proof.KI.Val1
import proofs.«125719_j32100585570938_1_alg».proof.Proof.KI.Val2
import proofs.«125719_j32100585570938_1_alg».proof.Proof.RefBridge

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)

/-- After the first region its result holds the reference's first scaled product. -/
theorem first_layer : W2 m c (Proc.devRef .tc main_v16) = Cert.ReferenceIdeal.Read.val_main_v18 (F := Ideal) a0 a1 a3 := by
  refine ((W2_arr m c 3).trans (region0_value (V1 m) c)).trans ?_
  rw [show V1 m c main_arg0 = a0 from stage_arg0 m c, show V1 m c main_arg3 = a3 from stage_arg3 m c,
    show V1 m c main_v15 = _ from stage_v15 m c]
  exact Cert.ReferenceIdeal.Bridge.scaled_eq_v18 a0 a1 a3 _

/-- After the second region its result holds the reference's second scaled product. -/
theorem second_layer :
    W6 m c (Proc.devRef .tc main_v35) = Cert.ReferenceIdeal.Read.val_main_v39 (F := Ideal) a0 a1 a2 a3 a4 a5 := by
  refine ((W6_arr m c 3).trans (region1_value (V5 m) c)).trans ?_
  rw [show V5 m c main_v33 = _ from stage_v33 m c (first_layer m c), show V5 m c main_arg5 = a5 from stage_arg5 m c,
    show V5 m c main_v34 = _ from stage_v34 m c]
  exact Cert.ReferenceIdeal.Bridge.scaled_eq_v39 a0 a1 a2 a3 a4 a5 _

/-- After the third region the decoder's result holds the reference's result. -/
theorem result_value :
    W8 m c (Proc.devRef .tc main_v52) = Cert.ReferenceIdeal.Read.val_main_v63 (F := Ideal) a0 a1 a2 a3 a4 a5 a6 := by
  refine ((W8_out m c).trans (region2_value (V7 m) c)).trans ?_
  rw [show V7 m c main_v51 = _ from stage_v51 m c (second_layer m c)]
  exact Cert.ReferenceIdeal.Bridge.decoded_eq_v63 a0 a1 a2 a3 a4 a5 a6

end Cert.KernelIdeal.Hand

end
-- ==== Proof.lean ====
/-
  A two-layer graph-convolution encoder with a dot-product decoder, as three kernel regions among host operations,
  against its plain reference.

  Both programs compute, from the edge lists, the per-node factors max(degree, 1)^(-1/2) of the source and of the
  destination degrees; a layer multiplies its input by its weight matrix, scales row r by the source factor of r,
  gathers the rows along the edges' sources, sums them into the edges' destinations, scales row r by the destination
  factor of r and adds the bias (the first layer then takes the positive part); the decoder is the logistic function
  of the embeddings' product with their own transpose. The kernel's program computes each layer's scaled product and
  the decoder in a kernel region, block by block; everything else is the same host operations in both programs.

  Over the extended reals the two agree term for term: a region's result array is the index-by-index function its
  body computes of the arrays it reads (a matrix product into a zero accumulator is the sum over the contracted
  index, a change of float format is the identity, the kernel's logistic is 1 / (1 + exp (−x)), which the reference
  spells out), and the host operations between the regions are the reference's own, so each layer's value in the
  kernel's program is the reference's stage. No law of arithmetic beyond these definitions is used, and the
  precondition is never opened.

  Each program's frame — it runs to its end, faults nowhere and leaves its arguments as launched — is read off its
  run: the kernel's programs' from the run of their eight items in order (the decoder's two input windows read one
  array, held in two halves of its full share for the region and joined after it), the reference's from its
  operations' run. The idealization rewrote nothing, so its soundness conjunct is trivial.
-/
import proofs.«125719_j32100585570938_1_alg».proof.Defs
import proofs.«125719_j32100585570938_1_alg».proof.Proof.K.Run
import proofs.«125719_j32100585570938_1_alg».proof.Proof.KI.Run
import proofs.«125719_j32100585570938_1_alg».proof.Proof.KI.Final
import proofs.«125719_j32100585570938_1_alg».proof.Proof.Gen.Kernel
import proofs.«125719_j32100585570938_1_alg».proof.Proof.Gen.KernelIdeal
import proofs.«125719_j32100585570938_1_alg».proof.Proof.Gen.ReferenceIdeal
import proofs.«125719_j32100585570938_1_alg».proof.Proof.Gen.ReferenceIdeal.Run
import proofs.«125719_j32100585570938_1_alg».proof.Proof.Gen.ReferenceIdeal.Read
import proofs.«125719_j32100585570938_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and keeps its arguments: its run, the result's equation dropped. -/
theorem frame_kernel : Cert.frame_Kernel := fun m g _ =>
  (θ_run (Cert.Kernel.defs (F := Bits)) _ _).mono (fun _ h c => (h c).2) (Cert.Kernel.Hand.run (F := Bits) m g)

/-- The idealized kernel program runs and keeps its arguments. -/
theorem frame_kernelIdeal : Cert.frame_KernelIdeal := fun m g _ =>
  (θ_run (Cert.KernelIdeal.defs (F := Ideal)) _ _).mono (fun _ h c => (h c).2) (Cert.KernelIdeal.Hand.run (F := Ideal) m g)

/-- The reference runs and keeps its arguments: its operations' run, the result dropped. -/
theorem frame_referenceIdeal : Cert.frame_ReferenceIdeal := fun m g _ =>
  (θ_run (Cert.ReferenceIdeal.defs (F := Ideal)) _ _).mono (fun _ h c => (h c).2) (Cert.ReferenceIdeal.Value.run (F := Ideal) m g)

/-- From memories that agree on the arguments both programs end with the reference's final stage of those arguments
    in their result arrays. -/
theorem algebraic : Cert.algebraic_KernelIdeal_ReferenceIdeal := by
  intro m g m' g' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun _ h c => ⟨(h c).1.trans (Cert.KernelIdeal.Hand.result_value m c), (h c).2⟩)
      (Cert.KernelIdeal.Hand.run (F := Ideal) m g)
  · refine (θ_run (Cert.ReferenceIdeal.defs (F := Ideal)) _ _).mono (fun _ h c => ⟨(h c).1.trans ?_, (h c).2⟩)
      (Cert.ReferenceIdeal.Value.run (F := Ideal) m' g')
    rw [Cert.ReferenceIdeal.Read.val_main_v63_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
